-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S1x8192x256 : Shape := ⟨3, ![1, 8192, 256]⟩
abbrev S1x8192 : Shape := ⟨2, ![1, 8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S1x8192 : S_.BroadcastsInDim S1x8192 (![] : Fin 0 → Fin S1x8192.rank)
  reducesTo_S1x8192_S_d0_1 : S1x8192.ReducesTo [0, 1] S_

variable [Facts]

def fn {F : FTy → Type} [FloatOps F] (main_arg0 : FVec F S4096x256 .f32) (main_arg1 : FVec F S1x8192x256 .f32) (main_arg2 : FVec F S1x8192 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  main_v13
-- ==== Kernel.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S4096x1 : Shape := ⟨2, ![4096, 1]⟩
abbrev S4096 : Shape := ⟨1, ![4096]⟩
abbrev S256x256 : Shape := ⟨2, ![256, 256]⟩
abbrev S256x1 : Shape := ⟨2, ![256, 1]⟩
abbrev S256x8192 : Shape := ⟨2, ![256, 8192]⟩
abbrev S1024x256 : Shape := ⟨2, ![1024, 256]⟩
abbrev S256x1024 : Shape := ⟨2, ![256, 1024]⟩
abbrev S1x1024 : Shape := ⟨2, ![1, 1024]⟩
abbrev S256 : Shape := ⟨1, ![256]⟩

abbrev nBuf : Space → Nat
  | .hbm => 7
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S4096x256, .f32⟩
  | .hbm, ⟨5, _⟩ => ⟨S4096x1, .f32⟩
  | .hbm, ⟨6, _⟩ => ⟨S4096, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S1x8192, .f32⟩
  | .local _ .vmem, ⟨4, _⟩ => ⟨S256x256, .f32⟩
  | .local _ .vmem, ⟨5, _⟩ => ⟨S256x256, .f32⟩
  | .local _ .vmem, ⟨6, _⟩ => ⟨S256x1, .f32⟩
  | .local _ .vmem, ⟨7, _⟩ => ⟨S256x1, .f32⟩
  | .local _ .vmem, ⟨8, _⟩ => ⟨S256x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_call0_v1_1 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x8192x256_S8192x256 : S1x8192x256.ShapeCasts S8192x256
  shapeCasts_S4096x1_S4096 : S4096x1.ShapeCasts S4096
  inb_S256x256_S256x256_0_0 : ∀ a, (![0, 0] : Fin 2 → Nat) a + S256x256.size a ≤ S256x256.size a
  h_S256x256 : 0 < S256x256.numel
  inb_S8192x256_S1024x256_0_0 : ∀ a, (![0, 0] : Fin 2 → Nat) a + S1024x256.size a ≤ S8192x256.size a
  h_S1024x256 : 0 < S1024x256.numel
  shapeCasts_S1024x256_S1024x256 : S1024x256.ShapeCasts S1024x256
  inb_S1x8192_S1x1024_0_0 : ∀ a, (![0, 0] : Fin 2 → Nat) a + S1x1024.size a ≤ S1x8192.size a
  h_S1x1024 : 0 < S1x1024.numel
  broadcasts_S1x1024_S256x1024 : S1x1024.Broadcasts S256x1024
  inb_S256x8192_S256x1024_0_0 : ∀ a, (![0, 0] : Fin 2 → Nat) a + S256x1024.size a ≤ S256x8192.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  inb_S8192x256_S1024x256_1024_0 : ∀ a, (![1024, 0] : Fin 2 → Nat) a + S1024x256.size a ≤ S8192x256.size a
  inb_S1x8192_S1x1024_0_1024 : ∀ a, (![0, 1024] : Fin 2 → Nat) a + S1x1024.size a ≤ S1x8192.size a
  inb_S256x8192_S256x1024_0_1024 : ∀ a, (![0, 1024] : Fin 2 → Nat) a + S256x1024.size a ≤ S256x8192.size a
  inb_S8192x256_S1024x256_2048_0 : ∀ a, (![2048, 0] : Fin 2 → Nat) a + S1024x256.size a ≤ S8192x256.size a
  inb_S1x8192_S1x1024_0_2048 : ∀ a, (![0, 2048] : Fin 2 → Nat) a + S1x1024.size a ≤ S1x8192.size a
  inb_S256x8192_S256x1024_0_2048 : ∀ a, (![0, 2048] : Fin 2 → Nat) a + S256x1024.size a ≤ S256x8192.size a
  inb_S8192x256_S1024x256_3072_0 : ∀ a, (![3072, 0] : Fin 2 → Nat) a + S1024x256.size a ≤ S8192x256.size a
  inb_S1x8192_S1x1024_0_3072 : ∀ a, (![0, 3072] : Fin 2 → Nat) a + S1x1024.size a ≤ S1x8192.size a
  inb_S256x8192_S256x1024_0_3072 : ∀ a, (![0, 3072] : Fin 2 → Nat) a + S256x1024.size a ≤ S256x8192.size a
  inb_S8192x256_S1024x256_4096_0 : ∀ a, (![4096, 0] : Fin 2 → Nat) a + S1024x256.size a ≤ S8192x256.size a
  inb_S1x8192_S1x1024_0_4096 : ∀ a, (![0, 4096] : Fin 2 → Nat) a + S1x1024.size a ≤ S1x8192.size a
  inb_S256x8192_S256x1024_0_4096 : ∀ a, (![0, 4096] : Fin 2 → Nat) a + S256x1024.size a ≤ S256x8192.size a
  inb_S8192x256_S1024x256_5120_0 : ∀ a, (![5120, 0] : Fin 2 → Nat) a + S1024x256.size a ≤ S8192x256.size a
  inb_S1x8192_S1x1024_0_5120 : ∀ a, (![0, 5120] : Fin 2 → Nat) a + S1x1024.size a ≤ S1x8192.size a
  inb_S256x8192_S256x1024_0_5120 : ∀ a, (![0, 5120] : Fin 2 → Nat) a + S256x1024.size a ≤ S256x8192.size a
  inb_S8192x256_S1024x256_6144_0 : ∀ a, (![6144, 0] : Fin 2 → Nat) a + S1024x256.size a ≤ S8192x256.size a
  inb_S1x8192_S1x1024_0_6144 : ∀ a, (![0, 6144] : Fin 2 → Nat) a + S1x1024.size a ≤ S1x8192.size a
  inb_S256x8192_S256x1024_0_6144 : ∀ a, (![0, 6144] : Fin 2 → Nat) a + S256x1024.size a ≤ S256x8192.size a
  inb_S8192x256_S1024x256_7168_0 : ∀ a, (![7168, 0] : Fin 2 → Nat) a + S1024x256.size a ≤ S8192x256.size a
  inb_S1x8192_S1x1024_0_7168 : ∀ a, (![0, 7168] : Fin 2 → Nat) a + S1x1024.size a ≤ S1x8192.size a
  inb_S256x8192_S256x1024_0_7168 : ∀ a, (![0, 7168] : Fin 2 → Nat) a + S256x1024.size a ≤ S256x8192.size a
  broadcasts_S256x1_S256x1024 : S256x1.Broadcasts S256x1024
  inb_S256x1_S256x1_0_0 : ∀ a, (![0, 0] : Fin 2 → Nat) a + S256x1.size a ≤ S256x1.size a
  h_S256x1 : 0 < S256x1.numel
  broadcasts_S256x1_S256x256 : S256x1.Broadcasts S256x256
  dot_S256x256_S1024x256_S256x1024_1_1_0_0_n_n_wf : DotDims.WF S256x256 S1024x256 S256x1024 [1] [1] [0] [0] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S256x8192 : Shape := ⟨2, ![256, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S256x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S4096x8192, .f32⟩
  | .hbm, ⟨43, _⟩ => ⟨S4096x8192, .f32⟩
  | .hbm, ⟨44, _⟩ => ⟨S4096x8192, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x8192, .f32⟩
  | .hbm, ⟨49, _⟩ => ⟨S4096x8192, .f32⟩
  | .hbm, ⟨50, _⟩ => ⟨S4096x8192, .f32⟩
  | .hbm, ⟨51, _⟩ => ⟨S_, .f32⟩
  | .hbm, ⟨52, _⟩ => ⟨S4096, .f32⟩
  | .hbm, ⟨53, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  shapeCasts_S1x8192x256_S8192x256 : S1x8192x256.ShapeCasts S8192x256
  transposes_S8192x256_S256x8192_1_0 : S8192x256.Transposes [1, 0] S256x8192
  bcast_S1x8192_S4096x8192_0_1 : S1x8192.BroadcastsInDim S4096x8192 (![0, 1] : Fin 2 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S_S4096 : S_.BroadcastsInDim S4096 (![] : Fin 0 → Fin S4096.rank)
  dot_S4096x256_S256x8192_S4096x8192_1_0_0_1_n_n_wf : DotDims.WF S4096x256 S256x8192 S4096x8192 [1] [0] [0] [1] [] []
  dot_S4096x8192_S8192x256_S4096x256_1_0_0_1_n_n_wf : DotDims.WF S4096x8192 S8192x256 S4096x256 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.Spec.lean ====
/-
  The mathematics of one row of the soft selection, over the extended reals.

  A row has K candidate scores s k. With M = max s, m = min s the temperature is
  eff = min hi (max lo (lo / max (M - m) eps)), always between the two finite literals lo and hi.
  The kernel's form: weights e k = exp (s k * eff - M * eff), normaliser D = ∑ e k, and the two results
  (∑ e k * s k) * (1 / D) and (∑ e k * y k) * (1 / D).
  The reference's form: z k = s k * eff, shifted twice by its own maximum (the second shift is by the maximum of
  already shifted values, which is 0 on finite scores), weights w k = exp (..) / ∑ exp (..), and the two results
  ∑ w k * s k and ∑ w k * y k.
  On finite scores the two forms agree: eff is a non-negative real, so max (s k * eff) = M * eff; the second shift
  is by 0; and a real non-zero normaliser moves across the finite sums.
-/
import Idealize.ShloMosaic.PureOps.Ideal
import Idealize.ShloMosaic.Lib.ValueIdx

noncomputable section

open scoped BigOperators

namespace Cert.Soft

open Idealize.ShloMosaic Idealize.ShloMosaic.ValueIdx

/-- The lower temperature bound, the literal 50. -/
def lo : EReal := Ideal.ofBits .f32 0x42480000#32
/-- The upper temperature bound, the literal 5000. -/
def hi : EReal := Ideal.ofBits .f32 0x459C4000#32
/-- The smallest admitted span, the literal nearest 1/1000. -/
def eps : EReal := Ideal.ofBits .f32 0x3A83126F#32
/-- The literal 1. -/
def one : EReal := Ideal.ofBits .f32 0x3F800000#32

/-- The effective temperature from a row's maximum and minimum. -/
def eff (M m : EReal) : EReal := min hi (max lo (Ideal.div lo (max (M - m) eps)))

section Row

variable {ι : Type} [Fintype ι]

/-- A row's maximum, from -∞. -/
def rmax (s : ι → EReal) : EReal := Finset.univ.sup s
/-- A row's minimum, from +∞. -/
def rmin (s : ι → EReal) : EReal := Finset.univ.inf s
/-- The row's temperature. -/
def effOf (s : ι → EReal) : EReal := eff (rmax s) (rmin s)

/-! ### The kernel's form -/

/-- The unnormalised weight: exp (s k * eff - max * eff). -/
def kE (s : ι → EReal) (k : ι) : EReal := Ideal.exp (s k * effOf s - rmax s * effOf s)
/-- The normaliser. -/
def kD (s : ι → EReal) : EReal := ∑ k, kE s k
/-- Its reciprocal, as the kernel divides the literal 1 by it. -/
def kInv (s : ι → EReal) : EReal := Ideal.div one (kD s)
/-- The soft value: (∑ e k * s k) * (1 / D). -/
def kV (s : ι → EReal) : EReal := (∑ k, kE s k * s k) * kInv s
/-- One coordinate of the soft choice: (∑ e k * y k) * (1 / D). -/
def kC (s y : ι → EReal) : EReal := (∑ k, kE s k * y k) * kInv s

/-! ### The reference's form -/

/-- The scaled score. -/
def rZ (s : ι → EReal) (k : ι) : EReal := s k * effOf s
/-- Shifted by its maximum. -/
def rZ1 (s : ι → EReal) (k : ι) : EReal := rZ s k - Finset.univ.sup (rZ s)
/-- Shifted once more, by the maximum of the shifted values. -/
def rZ2 (s : ι → EReal) (k : ι) : EReal := rZ1 s k - Finset.univ.sup (rZ1 s)
/-- The unnormalised weight. -/
def rE (s : ι → EReal) (k : ι) : EReal := Ideal.exp (rZ2 s k)
/-- The normaliser. -/
def rD (s : ι → EReal) : EReal := ∑ k, rE s k
/-- The normalised weight. -/
def rW (s : ι → EReal) (k : ι) : EReal := Ideal.div (rE s k) (rD s)
/-- The soft value: ∑ w k * s k. -/
def rV (s : ι → EReal) : EReal := ∑ k, rW s k * s k
/-- One coordinate of the soft choice: ∑ w k * y k. -/
def rC (s y : ι → EReal) : EReal := ∑ k, rW s k * y k

end Row

/-! ### The scores of the whole arrays -/

/-- Row i's score against candidate k: ⟨x i, yq k⟩ + b k. -/
def score (x : (⟨2, ![4096, 256]⟩ : Shape).Idx → EReal) (yq : (⟨2, ![8192, 256]⟩ : Shape).Idx → EReal)
    (b : (⟨2, ![1, 8192]⟩ : Shape).Idx → EReal) (i : Fin 4096) (k : Fin 8192) : EReal :=
  (∑ d : Fin 256, x (ix2 i d) * yq (ix2 k d)) + b (ix2 0 k)

/-- Column j of the candidate set. -/
def col (yq : (⟨2, ![8192, 256]⟩ : Shape).Idx → EReal) (j : Fin 256) (k : Fin 8192) : EReal := yq (ix2 k j)

/-- The candidate set as a matrix, from the rank-3 argument with its leading unit axis. -/
def squeeze (y : (⟨3, ![1, 8192, 256]⟩ : Shape).Idx → EReal) : (⟨2, ![8192, 256]⟩ : Shape).Idx → EReal :=
  fun i => y (ix3 0 (i 0) (i 1))

end Cert.Soft

end
-- ==== Proof.Algebra.lean ====
/-
  On finite scores the kernel's form of a row and the reference's form agree.
-/
import proofs.«136104_g88089779241353_cont_9to1c4b_404_4_alg».proof.Proof.Spec

noncomputable section

open scoped BigOperators

namespace Cert.Soft

open Idealize.ShloMosaic Idealize.ShloMosaic.ValueIdx

/-! ### The literals -/

/-- The lower bound's pattern denotes the real 50. -/
private theorem lo_eq : lo = ((50 : ℝ) : EReal) := by
  unfold lo
  simp [Ideal.ofBits, Ideal.ieee, -EReal.coe_mul]; norm_num

/-- The upper bound's pattern denotes the real 5000. -/
private theorem hi_eq : hi = ((5000 : ℝ) : EReal) := by
  unfold hi
  simp [Ideal.ofBits, Ideal.ieee, -EReal.coe_mul]; norm_num

/-- The pattern of the literal 1 denotes the real 1. -/
private theorem one_eq : one = ((1 : ℝ) : EReal) := by
  unfold one
  simp [Ideal.ofBits, Ideal.ieee, -EReal.coe_mul]; norm_num

/-- The temperature is a non-negative real whatever the maximum and minimum are: it lies between the two finite literals. -/
theorem eff_real (M m : EReal) : ∃ r : ℝ, 0 ≤ r ∧ eff M m = (r : EReal) := by
  have hlo : (0 : EReal) ≤ lo := by
    rw [lo_eq]; exact_mod_cast (by norm_num : (0 : ℝ) ≤ 50)
  have hlohi : lo ≤ hi := by
    rw [lo_eq, hi_eq]; exact_mod_cast (by norm_num : (50 : ℝ) ≤ 5000)
  have h1 : eff M m ≤ hi := min_le_left _ _
  have h2 : lo ≤ eff M m := le_min hlohi (le_max_left _ _)
  have hnt : eff M m ≠ ⊤ := by
    intro h
    rw [h, hi_eq] at h1
    exact (EReal.coe_ne_top _) (top_le_iff.mp h1)
  have hnb : eff M m ≠ ⊥ := by
    intro h
    rw [h, lo_eq] at h2
    exact (EReal.coe_ne_bot _) (le_bot_iff.mp h2)
  exact ⟨(eff M m).toReal, EReal.toReal_nonneg (hlo.trans h2), (EReal.coe_toReal hnt hnb).symm⟩

/-- The coercion of a finite sum of reals is the sum of the coercions. -/
private theorem coe_sum {α : Type} (t : Finset α) (f : α → ℝ) :
    (∑ a ∈ t, (f a : EReal)) = ((∑ a ∈ t, f a : ℝ) : EReal) := by
  classical
  induction t using Finset.induction_on with
  | empty => simp
  | insert a t ha ih => rw [Finset.sum_insert ha, Finset.sum_insert ha, ih, EReal.coe_add]

/-- Scores of finite arrays are finite. -/
theorem score_real (x : (⟨2, ![4096, 256]⟩ : Shape).Idx → EReal) (yq : (⟨2, ![8192, 256]⟩ : Shape).Idx → EReal)
    (b : (⟨2, ![1, 8192]⟩ : Shape).Idx → EReal) (hx : ∀ i, ∃ r : ℝ, x i = (r : EReal)) (hy : ∀ i, ∃ r : ℝ, yq i = (r : EReal))
    (hb : ∀ i, ∃ r : ℝ, b i = (r : EReal)) (i : Fin 4096) (k : Fin 8192) : ∃ r : ℝ, score x yq b i k = (r : EReal) := by
  choose xr hxr using hx
  choose yr hyr using hy
  choose br hbr using hb
  refine ⟨(∑ d : Fin 256, xr (ix2 i d) * yr (ix2 k d)) + br (ix2 0 k), ?_⟩
  unfold score
  rw [EReal.coe_add, ← coe_sum, hbr]
  congr 1
  exact Finset.sum_congr rfl (fun d _ => by rw [hxr, hyr, EReal.coe_mul])

variable {ι : Type} [Fintype ι] [Nonempty ι]

/-- On a row of reals both forms have the same real weights E k = exp (s k * e - M * e), with a non-zero sum. -/
private theorem closed (sr : ι → ℝ) :
    ∃ (E : ι → ℝ) (D : ℝ), D ≠ 0 ∧ (∀ k, kE (fun j => (sr j : EReal)) k = (E k : EReal)) ∧
      (∀ k, rE (fun j => (sr j : EReal)) k = (E k : EReal)) ∧ D = ∑ k, E k := by
  classical
  set s : ι → EReal := fun j => (sr j : EReal) with hs
  obtain ⟨e, he0, he⟩ := eff_real (rmax s) (rmin s)
  obtain ⟨kstar, -, hk⟩ := Finset.exists_max_image Finset.univ sr Finset.univ_nonempty
  have hmax : rmax s = ((sr kstar : ℝ) : EReal) := by
    apply le_antisymm
    · exact Finset.sup_le (fun k _ => EReal.coe_le_coe_iff.mpr (hk k (Finset.mem_univ k)))
    · exact Finset.le_sup (f := s) (Finset.mem_univ kstar)
  have heff : effOf s = (e : EReal) := he
  have hZ : ∀ k, rZ s k = ((sr k * e : ℝ) : EReal) := fun k => by
    show (sr k : EReal) * effOf s = _
    rw [heff, EReal.coe_mul]
  have hsupZ : Finset.univ.sup (rZ s) = ((sr kstar * e : ℝ) : EReal) := by
    apply le_antisymm
    · refine Finset.sup_le (fun k _ => ?_)
      rw [hZ k]
      exact EReal.coe_le_coe_iff.mpr (mul_le_mul_of_nonneg_right (hk k (Finset.mem_univ k)) he0)
    · rw [← hZ kstar]
      exact Finset.le_sup (f := rZ s) (Finset.mem_univ kstar)
  have hZ1 : ∀ k, rZ1 s k = ((sr k * e - sr kstar * e : ℝ) : EReal) := fun k => by
    show rZ s k - Finset.univ.sup (rZ s) = _
    rw [hZ k, hsupZ, EReal.coe_sub]
  have hsupZ1 : Finset.univ.sup (rZ1 s) = 0 := by
    apply le_antisymm
    · refine Finset.sup_le (fun k _ => ?_)
      rw [hZ1 k, ← EReal.coe_zero]
      exact EReal.coe_le_coe_iff.mpr
        (sub_nonpos.mpr (mul_le_mul_of_nonneg_right (hk k (Finset.mem_univ k)) he0))
    · have h0 : rZ1 s kstar = 0 := by rw [hZ1 kstar, sub_self, EReal.coe_zero]
      exact h0.symm.le.trans (Finset.le_sup (f := rZ1 s) (Finset.mem_univ kstar))
  refine ⟨fun k => Real.exp (sr k * e - sr kstar * e), ∑ k, Real.exp (sr k * e - sr kstar * e), ?_, ?_, ?_, rfl⟩
  · exact (Finset.sum_pos (fun k _ => Real.exp_pos _) Finset.univ_nonempty).ne'
  · intro k
    show Ideal.exp ((sr k : EReal) * effOf s - rmax s * effOf s) = _
    rw [heff, hmax, ← EReal.coe_mul, ← EReal.coe_mul, ← EReal.coe_sub, Ideal.exp_coe]
  · intro k
    show Ideal.exp (rZ1 s k - Finset.univ.sup (rZ1 s)) = _
    rw [hsupZ1, sub_zero, hZ1 k, Ideal.exp_coe]

/-- The two forms of a weighted result agree on a row of reals, for any real second factor. -/
private theorem agree (sr yr : ι → ℝ) :
    (∑ k, kE (fun j => (sr j : EReal)) k * (yr k : EReal)) * kInv (fun j => (sr j : EReal))
      = ∑ k, rW (fun j => (sr j : EReal)) k * (yr k : EReal) := by
  obtain ⟨E, D, hD, hkE, hrE, hDsum⟩ := closed sr
  set s : ι → EReal := fun j => (sr j : EReal) with hs
  have hkD : kD s = (D : EReal) := by
    show ∑ k, kE s k = _
    rw [hDsum, ← coe_sum]
    exact Finset.sum_congr rfl (fun k _ => hkE k)
  have hrD : rD s = (D : EReal) := by
    show ∑ k, rE s k = _
    rw [hDsum, ← coe_sum]
    exact Finset.sum_congr rfl (fun k _ => hrE k)
  have hInv : kInv s = ((1 / D : ℝ) : EReal) := by
    show Ideal.div one (kD s) = _
    rw [hkD, Ideal.div_coe hD, one_eq, ← EReal.coe_mul, one_mul]
  have hW : ∀ k, rW s k = ((E k * (1 / D) : ℝ) : EReal) := fun k => by
    show Ideal.div (rE s k) (rD s) = _
    rw [hrD, Ideal.div_coe hD, hrE k, ← EReal.coe_mul]
  have hL : (∑ k, kE s k * (yr k : EReal)) = ((∑ k, E k * yr k : ℝ) : EReal) := by
    rw [← coe_sum]
    exact Finset.sum_congr rfl (fun k _ => by rw [hkE k, EReal.coe_mul])
  have hR : (∑ k, rW s k * (yr k : EReal)) = ((∑ k, E k * (1 / D) * yr k : ℝ) : EReal) := by
    rw [← coe_sum]
    exact Finset.sum_congr rfl (fun k _ => by rw [hW k, ← EReal.coe_mul])
  rw [hL, hR, hInv, ← EReal.coe_mul, Finset.sum_mul]
  congr 1
  exact Finset.sum_congr rfl (fun k _ => by ring)

/-- The soft value: the two forms agree on finite scores. -/
theorem kV_eq_rV (s : ι → EReal) (hs : ∀ k, ∃ r : ℝ, s k = (r : EReal)) : kV s = rV s := by
  choose sr hsr using hs
  obtain rfl : s = fun j => (sr j : EReal) := funext hsr
  exact agree sr sr

/-- A coordinate of the soft choice: the two forms agree on finite scores and finite candidates. -/
theorem kC_eq_rC (s y : ι → EReal) (hs : ∀ k, ∃ r : ℝ, s k = (r : EReal)) (hy : ∀ k, ∃ r : ℝ, y k = (r : EReal)) :
    kC s y = rC s y := by
  choose sr hsr using hs
  choose yr hyr using hy
  obtain rfl : s = fun j => (sr j : EReal) := funext hsr
  obtain rfl : y = fun j => (yr j : EReal) := funext hyr
  exact agree sr yr

end Cert.Soft

end
-- ==== Proof.Finite.lean ====
/-
  The precondition says every entry of the three arguments is finite: a real number.
-/
import proofs.«136104_g88089779241353_cont_9to1c4b_404_4_alg».proof.Pre_finite_inputs
import proofs.«136104_g88089779241353_cont_9to1c4b_404_4_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The pattern 0x7F800000 is plus infinity. -/
private theorem inf_bits : Ideal.ofBits .f32 0x7F800000#32 = (⊤ : EReal) := by simp [Ideal.ofBits, Ideal.ieee]

/-- An extended real whose absolute value max x (-x) is strictly below plus infinity is a real. -/
private theorem real_of_abs_lt (x : EReal) (hx : Ideal.cmp .olt (max x (-x)) (Ideal.ofBits .f32 0x7F800000#32) = 1#1) :
    ∃ r : ℝ, x = (r : EReal) := by
  rw [inf_bits] at hx
  induction x using EReal.rec with
  | bot => simp [Ideal.cmp] at hx
  | coe r => exact ⟨r, rfl⟩
  | top => simp [Ideal.cmp] at hx

/-- The rank-0 shape has one index. -/
private instance : Subsingleton S_.Idx := ⟨fun _ _ => funext fun d => d.elim0⟩

/-- From the printed precondition at the ideal values: each entry of each argument is a real. -/
theorem real_of_pre (x0 : FVec Ideal S4096x256 .f32) (x1 : FVec Ideal S1x8192x256 .f32) (x2 : FVec Ideal S1x8192 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt (x0 i) (Host.reduce_andi_all _ _ _ _ _ h0' i)
  · exact real_of_abs_lt (x1 i) (Host.reduce_andi_all _ _ _ _ _ h1 i)
  · exact real_of_abs_lt (x2 i) (Host.reduce_andi_all _ _ _ _ _ h2 i)

end Cert.Finite

end
-- ==== Proof.RefRead.lean ====
/-
  The reference read at an index, at the ideal values: its two results are the reference's form of the soft choice
  and of the soft value of the row's scores.
-/
import proofs.«136104_g88089779241353_cont_9to1c4b_404_4_alg».proof.Proof.Gen.ReferenceIdeal.Read
import proofs.«136104_g88089779241353_cont_9to1c4b_404_4_alg».proof.Proof.Spec
import Idealize.ShloMosaic.PureOps.Reduce

noncomputable section

open scoped BigOperators

namespace Cert.ReferenceIdeal.RefValue

open Idealize.ShloMosaic Idealize.ShloMosaic.ValueIdx Cert.ReferenceIdeal Cert.ReferenceIdeal.Gen Cert.ReferenceIdeal.Read

variable (x0 : (⟨S4096x256, .f32⟩ : BufTy).Contents (Elt Ideal)) (x1 : (⟨S1x8192x256, .f32⟩ : BufTy).Contents (Elt Ideal))
  (x2 : (⟨S1x8192, .f32⟩ : BufTy).Contents (Elt Ideal))

/-- The word of -∞. -/
private theorem ofBits_neg_inf : Ideal.ofBits .f32 0xFF800000#32 = (⊥ : EReal) := by
  simp [Ideal.ofBits, Ideal.ieee]

/-- The word of +∞. -/
private theorem ofBits_pos_inf : Ideal.ofBits .f32 0x7F800000#32 = (⊤ : EReal) := by
  simp [Ideal.ofBits, Ideal.ieee]

/-- A maximum over the second axis from -∞, at row i: the supremum of the row. -/
private theorem reduce_max_row (x : S4096x8192.Idx → EReal) (init : S_.Idx → EReal)
    (hinit : init (Shape.Idx.first h_S_) = ⊥) (i : Fin 4096) :
    Host.reduce (FloatOps.maximumf (F := Ideal) (φ := .f32)) x init reducesTo_S4096x8192_S4096_d1 h_S_ (ix1 i)
      = Finset.univ.sup fun k : Fin 8192 => x (ix2 i k) := by
  have h : Shape.Reduces S4096x8192 [1] S4096 := by decide
  rw [Host.reduce_eq_fold_single _ x init reducesTo_S4096x8192_S4096_d1 h h_S_ (ix1 i), hinit]
  have e : (x ∘ h.lift (ix1 i)) = fun k : Fin 8192 => x (ix2 i k) :=
    funext fun k => congrArg x (funext fun a => Fin.ext (by match a with | ⟨0, _⟩ => rfl | ⟨1, _⟩ => rfl))
  rw [e]
  rfl

/-- A minimum over the second axis from +∞, at row i: the infimum of the row. -/
private theorem reduce_min_row (x : S4096x8192.Idx → EReal) (init : S_.Idx → EReal)
    (hinit : init (Shape.Idx.first h_S_) = ⊤) (i : Fin 4096) :
    Host.reduce (FloatOps.minimumf (F := Ideal) (φ := .f32)) x init reducesTo_S4096x8192_S4096_d1 h_S_ (ix1 i)
      = Finset.univ.inf fun k : Fin 8192 => x (ix2 i k) := by
  have h : Shape.Reduces S4096x8192 [1] S4096 := by decide
  rw [Host.reduce_eq_fold_single _ x init reducesTo_S4096x8192_S4096_d1 h h_S_ (ix1 i), hinit]
  have e : (x ∘ h.lift (ix1 i)) = fun k : Fin 8192 => x (ix2 i k) :=
    funext fun k => congrArg x (funext fun a => Fin.ext (by match a with | ⟨0, _⟩ => rfl | ⟨1, _⟩ => rfl))
  rw [e]
  rfl

/-! ### The scores -/

/-- The candidate matrix: the rank-3 argument without its unit axis. -/
private theorem v0_read (k : Fin 8192) (d : Fin 256) :
    val_main_v0 (F := Ideal) x1 (ix2 k d) = Soft.squeeze x1 (ix2 k d) := by
  rw [val_main_v0_apply]
  show x1 _ = x1 (ix3 0 k d)
  refine congrArg x1 (funext fun a => Fin.ext ?_)
  have hk := k.isLt
  have hd := d.isLt
  match a with
  | ⟨0, _⟩ => rfl
  | ⟨1, _⟩ => show (k.val * 256 + d.val) / 256 % 8192 = k.val; omega
  | ⟨2, _⟩ => show (k.val * 256 + d.val) % 256 = d.val; omega

/-- The scores: ⟨x i, yq k⟩ + b k. -/
private theorem v4_read (i : Fin 4096) (k : Fin 8192) :
    val_main_v4 (F := Ideal) x0 x1 x2 (ix2 i k) = Soft.score x0 (Soft.squeeze x1) x2 i k := by
  rw [val_main_v4_apply, val_main_v2_apply, val_main_v3_apply, Ideal.addf_def]
  unfold Soft.score
  refine congrArg₂ (· + ·) (Finset.sum_congr rfl fun d _ => ?_) ?_
  · rw [val_main_v1_apply]
    have e1 : lidx_main_v2 (ix2 i k) d = ix2 i d :=
      funext fun a => Fin.ext (by match a with | ⟨0, _⟩ => rfl | ⟨1, _⟩ => rfl)
    have e2 : idx_main_v1 (ridx_main_v2 (ix2 i k) d) = ix2 k d :=
      funext fun a => Fin.ext (by match a with | ⟨0, _⟩ => rfl | ⟨1, _⟩ => rfl)
    rw [e1, e2, v0_read]
  · exact congrArg x2 (funext fun a => Fin.ext (by match a with | ⟨0, _⟩ => rfl | ⟨1, _⟩ => rfl))

/-- The row maximum. -/
private theorem v5_read (i : Fin 4096) :
    val_main_v5 (F := Ideal) x0 x1 x2 (ix1 i) = Soft.rmax (Soft.score x0 (Soft.squeeze x1) x2 i) := by
  unfold val_main_v5
  rw [reduce_max_row _ _ ofBits_neg_inf i]
  unfold Soft.rmax
  exact congrArg (Finset.univ.sup) (funext fun k => v4_read x0 x1 x2 i k)

/-- The row minimum. -/
private theorem v7_read (i : Fin 4096) :
    val_main_v7 (F := Ideal) x0 x1 x2 (ix1 i) = Soft.rmin (Soft.score x0 (Soft.squeeze x1) x2 i) := by
  unfold val_main_v7
  rw [reduce_min_row _ _ ofBits_pos_inf i]
  unfold Soft.rmin
  exact congrArg (Finset.univ.inf) (funext fun k => v4_read x0 x1 x2 i k)

/-! ### The temperature -/

/-- The clipped temperature of row i. -/
private theorem v14_read (i : Fin 4096) :
    val_main_v14 (F := Ideal) x0 x1 x2 (ix2 i (0 : Fin 1)) = Soft.effOf (Soft.score x0 (Soft.squeeze x1) x2 i) := by
  have e6 : idx_main_v6 (ix2 i (0 : Fin 1)) = ix1 i :=
    funext fun a => Fin.ext (by match a with | ⟨0, _⟩ => rfl)
  have e8 : idx_main_v8 (ix2 i (0 : Fin 1)) = ix1 i :=
    funext fun a => Fin.ext (by match a with | ⟨0, _⟩ => rfl)
  rw [val_main_v14_apply, val_main_call0_v4_apply, val_main_call0_v3_apply, val_main_cst_4_apply,
    val_main_call0_v2_apply, val_main_call0_v1_apply, val_main_call0_v0_apply, val_main_cst_3_apply,
    val_main_v13_apply, val_main_v12_apply, val_main_cst_2_apply, val_main_v11_apply, val_main_v10_apply,
    val_main_cst_1_apply, val_main_v9_apply, val_main_v6_apply, val_main_v8_apply, e6, e8, v5_read, v7_read]
  rfl

/-! ### The row form -/

/-- The scaled score. -/
private theorem v16_read (i : Fin 4096) (k : Fin 8192) :
    val_main_v16 (F := Ideal) x0 x1 x2 (ix2 i k) = Soft.rZ (Soft.score x0 (Soft.squeeze x1) x2 i) k := by
  have e : idx_main_v15 (ix2 i k) = ix2 i (0 : Fin 1) :=
    funext fun a => Fin.ext (by match a with | ⟨0, _⟩ => rfl | ⟨1, _⟩ => rfl)
  rw [val_main_v16_apply, val_main_v15_apply, e, v14_read, v4_read]
  rfl

/-- Its row maximum. -/
private theorem v17_read (i : Fin 4096) :
    val_main_v17 (F := Ideal) x0 x1 x2 (ix1 i) = Finset.univ.sup (Soft.rZ (Soft.score x0 (Soft.squeeze x1) x2 i)) := by
  unfold val_main_v17
  rw [reduce_max_row _ _ ofBits_neg_inf i]
  exact congrArg (Finset.univ.sup) (funext fun k => v16_read x0 x1 x2 i k)

/-- The first shift. -/
private theorem v20_read (i : Fin 4096) (k : Fin 8192) :
    val_main_v20 (F := Ideal) x0 x1 x2 (ix2 i k) = Soft.rZ1 (Soft.score x0 (Soft.squeeze x1) x2 i) k := by
  have e19 : idx_main_v19 (ix2 i k) = ix2 i (0 : Fin 1) :=
    funext fun a => Fin.ext (by match a with | ⟨0, _⟩ => rfl | ⟨1, _⟩ => rfl)
  have e18 : idx_main_v18 (ix2 i (0 : Fin 1)) = ix1 i :=
    funext fun a => Fin.ext (by match a with | ⟨0, _⟩ => rfl)
  rw [val_main_v20_apply, val_main_v19_apply, e19, val_main_v18_apply, e18, v17_read, v16_read]
  rfl

/-- The maximum of the shifted row. -/
private theorem v21_read (i : Fin 4096) :
    val_main_v21 (F := Ideal) x0 x1 x2 (ix1 i) = Finset.univ.sup (Soft.rZ1 (Soft.score x0 (Soft.squeeze x1) x2 i)) := by
  unfold val_main_v21
  rw [reduce_max_row _ _ ofBits_neg_inf i]
  exact congrArg (Finset.univ.sup) (funext fun k => v20_read x0 x1 x2 i k)

/-- The second shift: the maximum with -∞ is the maximum itself. -/
private theorem v26_read (i : Fin 4096) (k : Fin 8192) :
    val_main_v26 (F := Ideal) x0 x1 x2 (ix2 i k) = Soft.rZ2 (Soft.score x0 (Soft.squeeze x1) x2 i) k := by
  have e25 : idx_main_v25 (ix2 i k) = ix2 i (0 : Fin 1) :=
    funext fun a => Fin.ext (by match a with | ⟨0, _⟩ => rfl | ⟨1, _⟩ => rfl)
  have e24 : idx_main_v24 (ix2 i (0 : Fin 1)) = ix1 i :=
    funext fun a => Fin.ext (by match a with | ⟨0, _⟩ => rfl)
  rw [val_main_v26_apply, val_main_v25_apply, e25, val_main_v24_apply, e24, val_main_v23_apply, val_main_v22_apply,
    val_main_cst_7_apply, v21_read, v20_read, Ideal.ofBits_def, ofBits_neg_inf, Ideal.maximumf_def, max_bot_left]
  rfl

/-- The unnormalised weight. -/
private theorem v27_read (i : Fin 4096) (k : Fin 8192) :
    val_main_v27 (F := Ideal) x0 x1 x2 (ix2 i k) = Soft.rE (Soft.score x0 (Soft.squeeze x1) x2 i) k := by
  rw [val_main_v27_apply, v26_read]
  rfl

/-- The normaliser. -/
private theorem v28_read (i : Fin 4096) :
    val_main_v28 (F := Ideal) x0 x1 x2 (ix1 i) = Soft.rD (Soft.score x0 (Soft.squeeze x1) x2 i) := by
  rw [val_main_v28_apply, val_main_cst_8_apply, Ideal.ofBits_def, Ideal.ofBits_zero_f32, zero_add]
  unfold Soft.rD
  refine Finset.sum_congr rfl fun k _ => ?_
  have e : idx_main_v28 (ix1 i) k = ix2 i k :=
    funext fun a => Fin.ext (by match a with | ⟨0, _⟩ => rfl | ⟨1, _⟩ => rfl)
  rw [e, v27_read]

/-- The normalised weight. -/
private theorem v31_read (i : Fin 4096) (k : Fin 8192) :
    val_main_v31 (F := Ideal) x0 x1 x2 (ix2 i k) = Soft.rW (Soft.score x0 (Soft.squeeze x1) x2 i) k := by
  have e30 : idx_main_v30 (ix2 i k) = ix2 i (0 : Fin 1) :=
    funext fun a => Fin.ext (by match a with | ⟨0, _⟩ => rfl | ⟨1, _⟩ => rfl)
  have e29 : idx_main_v29 (ix2 i (0 : Fin 1)) = ix1 i :=
    funext fun a => Fin.ext (by match a with | ⟨0, _⟩ => rfl)
  rw [val_main_v31_apply, val_main_v30_apply, e30, val_main_v29_apply, e29, v28_read, v27_read]
  rfl

/-- The reference's soft choice at row i, coordinate j. -/
theorem choice_apply (i : Fin 4096) (j : Fin 256) :
    val_main_v34 (F := Ideal) x0 x1 x2 (ix2 i j)
      = Soft.rC (Soft.score x0 (Soft.squeeze x1) x2 i) (Soft.col (Soft.squeeze x1) j) := by
  rw [val_main_v34_apply]
  unfold Soft.rC
  refine Finset.sum_congr rfl fun k _ => ?_
  have el : lidx_main_v34 (ix2 i j) k = ix2 i k :=
    funext fun a => Fin.ext (by match a with | ⟨0, _⟩ => rfl | ⟨1, _⟩ => rfl)
  have er : ridx_main_v34 (ix2 i j) k = ix2 k j :=
    funext fun a => Fin.ext (by match a with | ⟨0, _⟩ => rfl | ⟨1, _⟩ => rfl)
  rw [el, er, v31_read, v0_read]
  rfl

/-- The reference's soft value at row i. -/
theorem v_apply (i : Fin 4096) :
    val_main_v33 (F := Ideal) x0 x1 x2 (ix1 i) = Soft.rV (Soft.score x0 (Soft.squeeze x1) x2 i) := by
  rw [val_main_v33_apply, val_main_cst_9_apply, Ideal.ofBits_def, Ideal.ofBits_zero_f32, zero_add]
  unfold Soft.rV
  refine Finset.sum_congr rfl fun k _ => ?_
  have e : idx_main_v33 (ix1 i) k = ix2 i k :=
    funext fun a => Fin.ext (by match a with | ⟨0, _⟩ => rfl | ⟨1, _⟩ => rfl)
  rw [val_main_v32_apply, e, v31_read, v4_read]
  rfl

end Cert.ReferenceIdeal.RefValue

end
-- ==== Proof.KernelDag.lean ====
/-
  The kernel body's value flow on one block of 256 rows, for any float instance: the whole candidate set
  (8192 × 256) and intercept row (1 × 8192) are read in eight tiles of 1024 candidates.
  First pass, per tile t: the score tile st t = x · (tile t of yq)ᵀ + (tile t of b) is kept, and the running row
  maximum and minimum are updated. Then the temperature eff and the shift c = max · eff. Second pass, per tile: the
  weights exp (st t · eff − c), their row sums, the row sums of weights · scores, and weights · (tile t of yq),
  each accumulated from zero. Last, everything is scaled by 1 / (sum of weights).
  Each name below is the body's value of the same number, as a term of the three blocks.
-/
import proofs.«136104_g88089779241353_cont_9to1c4b_404_4_alg».proof.Proof.Gen.KernelIdeal.Skeleton
import Idealize.ShloMosaic.Lib.Pipeline.FrameBody

set_option synthInstance.maxSize 4096

noncomputable section

namespace Cert.KernelIdeal.Dag

open Idealize.ShloMosaic Idealize.SL.Sem Cert.KernelIdeal Cert.KernelIdeal.Gen

variable {F : FTy → Type} [FloatOps F]
variable (x0 : Vec F S256x256 .f32) (x1 : Vec F S8192x256 .f32) (x2 : Vec F S1x8192 .f32)

/-- The block of 256 rows of x, read whole. -/
def v0 : Vec F S256x256 .f32 := View.ld x0 (Rect.unit (s := S256x256) ![0, 0] S256x256.size inb_S256x256_S256x256_0_0)

/-- Tile t of the candidate set: rows 1024 t … 1024 t + 1023. -/
def Y0 : Vec F S1024x256 .f32 := View.ld x1 (Rect.unit (s := S8192x256) ![0, 0] S1024x256.size inb_S8192x256_S1024x256_0_0)
def Y1 : Vec F S1024x256 .f32 := View.ld x1 (Rect.unit (s := S8192x256) ![1024, 0] S1024x256.size inb_S8192x256_S1024x256_1024_0)
def Y2 : Vec F S1024x256 .f32 := View.ld x1 (Rect.unit (s := S8192x256) ![2048, 0] S1024x256.size inb_S8192x256_S1024x256_2048_0)
def Y3 : Vec F S1024x256 .f32 := View.ld x1 (Rect.unit (s := S8192x256) ![3072, 0] S1024x256.size inb_S8192x256_S1024x256_3072_0)
def Y4 : Vec F S1024x256 .f32 := View.ld x1 (Rect.unit (s := S8192x256) ![4096, 0] S1024x256.size inb_S8192x256_S1024x256_4096_0)
def Y5 : Vec F S1024x256 .f32 := View.ld x1 (Rect.unit (s := S8192x256) ![5120, 0] S1024x256.size inb_S8192x256_S1024x256_5120_0)
def Y6 : Vec F S1024x256 .f32 := View.ld x1 (Rect.unit (s := S8192x256) ![6144, 0] S1024x256.size inb_S8192x256_S1024x256_6144_0)
def Y7 : Vec F S1024x256 .f32 := View.ld x1 (Rect.unit (s := S8192x256) ![7168, 0] S1024x256.size inb_S8192x256_S1024x256_7168_0)

/-- Tile t of the intercept row. -/
def B0 : Vec F S1x1024 .f32 := View.ld x2 (Rect.unit (s := S1x8192) ![0, 0] S1x1024.size inb_S1x8192_S1x1024_0_0)
def B1 : Vec F S1x1024 .f32 := View.ld x2 (Rect.unit (s := S1x8192) ![0, 1024] S1x1024.size inb_S1x8192_S1x1024_0_1024)
def B2 : Vec F S1x1024 .f32 := View.ld x2 (Rect.unit (s := S1x8192) ![0, 2048] S1x1024.size inb_S1x8192_S1x1024_0_2048)
def B3 : Vec F S1x1024 .f32 := View.ld x2 (Rect.unit (s := S1x8192) ![0, 3072] S1x1024.size inb_S1x8192_S1x1024_0_3072)
def B4 : Vec F S1x1024 .f32 := View.ld x2 (Rect.unit (s := S1x8192) ![0, 4096] S1x1024.size inb_S1x8192_S1x1024_0_4096)
def B5 : Vec F S1x1024 .f32 := View.ld x2 (Rect.unit (s := S1x8192) ![0, 5120] S1x1024.size inb_S1x8192_S1x1024_0_5120)
def B6 : Vec F S1x1024 .f32 := View.ld x2 (Rect.unit (s := S1x8192) ![0, 6144] S1x1024.size inb_S1x8192_S1x1024_0_6144)
def B7 : Vec F S1x1024 .f32 := View.ld x2 (Rect.unit (s := S1x8192) ![0, 7168] S1x1024.size inb_S1x8192_S1x1024_0_7168)

/-! ### First pass: the score tiles as kept, and the running maximum and minimum -/

def st0 : FVec F S256x1024 .f32 := k0_pay3 (v0 x0) (Y0 x1) (B0 x2)
def st1 : FVec F S256x1024 .f32 := k0_pay5 (v0 x0) (Y1 x1) (B1 x2)
def v27 : FVec F S256x1 .f32 := k0_pay6 (v0 x0) (Y0 x1) (B0 x2) (Y1 x1) (B1 x2)
def v28 : FVec F S256x1 .f32 := k0_pay7 (v0 x0) (Y0 x1) (B0 x2) (Y1 x1) (B1 x2)
def v31 : FVec F S256x1024 .f32 := k0_pay8 (v0 x0) (Y2 x1)
def st2 : FVec F S256x1024 .f32 := k0_pay10 (v31 x0 x1) (B2 x2)
def st3 : FVec F S256x1024 .f32 := k0_pay12 (v0 x0) (Y3 x1) (B3 x2)
def v57 : FVec F S256x1 .f32 := k0_pay13 (v0 x0) (v27 x0 x1 x2) (v31 x0 x1) (B2 x2) (Y3 x1) (B3 x2)
def v58 : FVec F S256x1 .f32 := k0_pay14 (v0 x0) (v28 x0 x1 x2) (v31 x0 x1) (B2 x2) (Y3 x1) (B3 x2)
def v64 : FVec F S256x1024 .f32 := k0_pay15 (v0 x0) (Y4 x1) (B4 x2)
def st4 : FVec F S256x1024 .f32 := k0_pay16 (v0 x0) (Y4 x1) (B4 x2)
def st5 : FVec F S256x1024 .f32 := k0_pay18 (v0 x0) (Y5 x1) (B5 x2)
def st6 : FVec F S256x1024 .f32 := k0_pay20 (v0 x0) (Y6 x1) (B6 x2)
def v102 : FVec F S256x1 .f32 := k0_pay21 (v0 x0) (v57 x0 x1 x2) (v64 x0 x1 x2) (Y5 x1) (B5 x2) (Y6 x1) (B6 x2)
def v103 : FVec F S256x1 .f32 := k0_pay22 (v0 x0) (v58 x0 x1 x2) (v64 x0 x1 x2) (Y5 x1) (B5 x2) (Y6 x1) (B6 x2)
def st7 : FVec F S256x1024 .f32 := k0_pay24 (v0 x0) (Y7 x1) (B7 x2)

/-! ### The temperature and the shift -/

/-- eff. -/
def v127 : FVec F S256x1 .f32 := k0_pay26 (v0 x0) (v102 x0 x1 x2) (v103 x0 x1 x2) (Y7 x1) (B7 x2)
/-- c = max · eff. -/
def v128 : FVec F S256x1 .f32 := k0_pay27 (v0 x0) (v102 x0 x1 x2) (v103 x0 x1 x2) (Y7 x1) (B7 x2)

/-! ### Second pass: weights, their sums, and the weighted candidates -/

def v131 : FVec F S256x256 .f32 := k0_pay28 (F := F)
def v137 : FVec F S256x1024 .f32 := k0_pay29 (v0 x0) (v102 x0 x1 x2) (v103 x0 x1 x2) (Y7 x1) (B7 x2) (st0 x0 x1 x2)
def v140 : FVec F S256x1 .f32 := k0_pay30 (v0 x0) (v102 x0 x1 x2) (v103 x0 x1 x2) (Y7 x1) (B7 x2) (st0 x0 x1 x2)
def v144 : FVec F S256x1 .f32 := k0_pay31 (v0 x0) (v102 x0 x1 x2) (v103 x0 x1 x2) (Y7 x1) (B7 x2) (st0 x0 x1 x2)
def v174 : FVec F S256x1 .f32 := k0_pay34 (v127 x0 x1 x2) (v128 x0 x1 x2) (v140 x0 x1 x2) (st1 x0 x1 x2) (st2 x0 x1 x2)
def v178 : FVec F S256x1 .f32 := k0_pay35 (v127 x0 x1 x2) (v128 x0 x1 x2) (v144 x0 x1 x2) (st1 x0 x1 x2) (st2 x0 x1 x2)
def v182 : FVec F S256x256 .f32 := k0_pay36 (v127 x0 x1 x2) (v128 x0 x1 x2) (v131 (F := F)) (v137 x0 x1 x2) (Y0 x1) (st1 x0 x1 x2) (Y1 x1) (st2 x0 x1 x2) (Y2 x1)
def v185 : FVec F S256x1024 .f32 := k0_pay37 (v127 x0 x1 x2) (st3 x0 x1 x2)
def v186 : FVec F S256x1024 .f32 := k0_pay38 (v128 x0 x1 x2)
def v216 : FVec F S256x256 .f32 := k0_pay41 (v127 x0 x1 x2) (v128 x0 x1 x2) (v182 x0 x1 x2) (v185 x0 x1 x2) (v186 x0 x1 x2) (Y3 x1) (st4 x0 x1 x2) (Y4 x1)
def v222 : FVec F S256x1024 .f32 := k0_pay42 (v127 x0 x1 x2) (v128 x0 x1 x2) (st5 x0 x1 x2)
def v225 : FVec F S256x1 .f32 := k0_pay43 (v127 x0 x1 x2) (v128 x0 x1 x2) (v174 x0 x1 x2) (v185 x0 x1 x2) (v186 x0 x1 x2) (st4 x0 x1 x2) (st5 x0 x1 x2)
def v229 : FVec F S256x1 .f32 := k0_pay44 (v127 x0 x1 x2) (v128 x0 x1 x2) (v178 x0 x1 x2) (st3 x0 x1 x2) (v185 x0 x1 x2) (v186 x0 x1 x2) (st4 x0 x1 x2) (st5 x0 x1 x2)
def v267 : FVec F S256x256 .f32 := k0_pay47 (v127 x0 x1 x2) (v128 x0 x1 x2) (v216 x0 x1 x2) (v222 x0 x1 x2) (Y5 x1) (st6 x0 x1 x2) (Y6 x1) (st7 x0 x1 x2) (Y7 x1)
/-- 1 / (sum of weights). -/
def v269 : FVec F S256x1 .f32 := k0_pay48 (v127 x0 x1 x2) (v128 x0 x1 x2) (v225 x0 x1 x2) (st6 x0 x1 x2) (st7 x0 x1 x2)

/-! ### The two blocks written -/

/-- The soft value block (256 × 1). -/
def outV : FVec F S256x1 .f32 := k0_pay49 (v127 x0 x1 x2) (v128 x0 x1 x2) (v225 x0 x1 x2) (v229 x0 x1 x2) (st6 x0 x1 x2) (st7 x0 x1 x2)
/-- The soft choice block (256 × 256). -/
def outC : FVec F S256x256 .f32 := k0_pay1 (v267 x0 x1 x2) (v269 x0 x1 x2)

end Cert.KernelIdeal.Dag

end
-- ==== Proof.KernelPiece.lean ====
/-
  What the body leaves in the two output blocks, for any float instance: the soft choice block and the soft value
  block as terms of the three input blocks. The body keeps each score tile in a scratch buffer of eight column
  tiles and reads each tile back after all eight are written; a tile read back is the tile written, the other seven
  being disjoint from it.
-/
import proofs.«136104_g88089779241353_cont_9to1c4b_404_4_alg».proof.Proof.Gen.KernelIdeal.Frame
import proofs.«136104_g88089779241353_cont_9to1c4b_404_4_alg».proof.Proof.KernelDag
import Idealize.ShloMosaic.Lib.Pipeline.Value

set_option maxRecDepth 16384

noncomputable section

namespace Cert.KernelIdeal.Piece

open Idealize.ShloMosaic Idealize.ShloMosaic.TcCoe Idealize.ShloMosaic.Tactic
open Idealize.SL Idealize.SL.Sem
open Cert.KernelIdeal Cert.KernelIdeal.Gen

variable {F : FTy → Type} [FloatOps F]

/-- Column tile t of the scratch buffer: all 256 rows, columns 1024 t … 1024 t + 1023. -/
private abbrev R0 : Rect S256x8192 := Rect.unit (s := S256x8192) ![0, 0] ![256, 1024] inb_S256x8192_S256x1024_0_0
private abbrev R1 : Rect S256x8192 := Rect.unit (s := S256x8192) ![0, 1024] ![256, 1024] inb_S256x8192_S256x1024_0_1024
private abbrev R2 : Rect S256x8192 := Rect.unit (s := S256x8192) ![0, 2048] ![256, 1024] inb_S256x8192_S256x1024_0_2048
private abbrev R3 : Rect S256x8192 := Rect.unit (s := S256x8192) ![0, 3072] ![256, 1024] inb_S256x8192_S256x1024_0_3072
private abbrev R4 : Rect S256x8192 := Rect.unit (s := S256x8192) ![0, 4096] ![256, 1024] inb_S256x8192_S256x1024_0_4096
private abbrev R5 : Rect S256x8192 := Rect.unit (s := S256x8192) ![0, 5120] ![256, 1024] inb_S256x8192_S256x1024_0_5120
private abbrev R6 : Rect S256x8192 := Rect.unit (s := S256x8192) ![0, 6144] ![256, 1024] inb_S256x8192_S256x1024_0_6144
private abbrev R7 : Rect S256x8192 := Rect.unit (s := S256x8192) ![0, 7168] ![256, 1024] inb_S256x8192_S256x1024_0_7168

/-- Two column tiles whose column ranges do not meet are disjoint. -/
private theorem dj (o o' : Nat) (inb inb') (h : o + 1024 ≤ o' ∨ o' + 1024 ≤ o) :
    Disjoint (Rect.unit (s := S256x8192) ![0, o] ![256, 1024] inb).set
      (Rect.unit (s := S256x8192) ![0, o'] ![256, 1024] inb').toLoadRect.set :=
  Rect.unit_disjoint (s := S256x8192) 1 h

section tiles

variable {sg : RefSig} {κ : Kind} {sp : Space} (v : View sg κ sp S256x8192 .f32)
variable (w0 : R0.shape.Idx → Elt F .f32) (w1 : R1.shape.Idx → Elt F .f32) (w2 : R2.shape.Idx → Elt F .f32) (w3 : R3.shape.Idx → Elt F .f32)
variable (w4 : R4.shape.Idx → Elt F .f32) (w5 : R5.shape.Idx → Elt F .f32) (w6 : R6.shape.Idx → Elt F .f32) (w7 : R7.shape.Idx → Elt F .f32)

/-- A piece: a rectangle of the scratch buffer with what was stored through it. -/
private abbrev P (r : Rect S256x8192) (w : r.shape.Idx → Elt F .f32) : View.Piece (Elt F) S256x8192 .f32 := ⟨r, w⟩

/-- Tile 7 read back after all eight tiles are written is the tile written. -/
private theorem tile7 : v.readCov [P R7 w7, P R6 w6, P R5 w5, P R4 w4, P R3 w3, P R2 w2, P R1 w1, P R0 w0] R7.toLoadRect = w7 :=
  View.readCov_cons_toLoadRect v R7 w7 _

/-- Tile 6 read back after all eight tiles are written is the tile written. -/
private theorem tile6 : v.readCov [P R7 w7, P R6 w6, P R5 w5, P R4 w4, P R3 w3, P R2 w2, P R1 w1, P R0 w0] R6.toLoadRect = w6 :=
  (View.readCov_cons_of_disjoint v (P R7 w7) _ R6.toLoadRect (dj 7168 6144 inb_S256x8192_S256x1024_0_7168 inb_S256x8192_S256x1024_0_6144 (by omega))).trans <|
  View.readCov_cons_toLoadRect v R6 w6 _

/-- Tile 5 read back after all eight tiles are written is the tile written. -/
private theorem tile5 : v.readCov [P R7 w7, P R6 w6, P R5 w5, P R4 w4, P R3 w3, P R2 w2, P R1 w1, P R0 w0] R5.toLoadRect = w5 :=
  (View.readCov_cons_of_disjoint v (P R7 w7) _ R5.toLoadRect (dj 7168 5120 inb_S256x8192_S256x1024_0_7168 inb_S256x8192_S256x1024_0_5120 (by omega))).trans <|
  (View.readCov_cons_of_disjoint v (P R6 w6) _ R5.toLoadRect (dj 6144 5120 inb_S256x8192_S256x1024_0_6144 inb_S256x8192_S256x1024_0_5120 (by omega))).trans <|
  View.readCov_cons_toLoadRect v R5 w5 _

/-- Tile 4 read back after all eight tiles are written is the tile written. -/
private theorem tile4 : v.readCov [P R7 w7, P R6 w6, P R5 w5, P R4 w4, P R3 w3, P R2 w2, P R1 w1, P R0 w0] R4.toLoadRect = w4 :=
  (View.readCov_cons_of_disjoint v (P R7 w7) _ R4.toLoadRect (dj 7168 4096 inb_S256x8192_S256x1024_0_7168 inb_S256x8192_S256x1024_0_4096 (by omega))).trans <|
  (View.readCov_cons_of_disjoint v (P R6 w6) _ R4.toLoadRect (dj 6144 4096 inb_S256x8192_S256x1024_0_6144 inb_S256x8192_S256x1024_0_4096 (by omega))).trans <|
  (View.readCov_cons_of_disjoint v (P R5 w5) _ R4.toLoadRect (dj 5120 4096 inb_S256x8192_S256x1024_0_5120 inb_S256x8192_S256x1024_0_4096 (by omega))).trans <|
  View.readCov_cons_toLoadRect v R4 w4 _

/-- Tile 3 read back after all eight tiles are written is the tile written. -/
private theorem tile3 : v.readCov [P R7 w7, P R6 w6, P R5 w5, P R4 w4, P R3 w3, P R2 w2, P R1 w1, P R0 w0] R3.toLoadRect = w3 :=
  (View.readCov_cons_of_disjoint v (P R7 w7) _ R3.toLoadRect (dj 7168 3072 inb_S256x8192_S256x1024_0_7168 inb_S256x8192_S256x1024_0_3072 (by omega))).trans <|
  (View.readCov_cons_of_disjoint v (P R6 w6) _ R3.toLoadRect (dj 6144 3072 inb_S256x8192_S256x1024_0_6144 inb_S256x8192_S256x1024_0_3072 (by omega))).trans <|
  (View.readCov_cons_of_disjoint v (P R5 w5) _ R3.toLoadRect (dj 5120 3072 inb_S256x8192_S256x1024_0_5120 inb_S256x8192_S256x1024_0_3072 (by omega))).trans <|
  (View.readCov_cons_of_disjoint v (P R4 w4) _ R3.toLoadRect (dj 4096 3072 inb_S256x8192_S256x1024_0_4096 inb_S256x8192_S256x1024_0_3072 (by omega))).trans <|
  View.readCov_cons_toLoadRect v R3 w3 _

/-- Tile 2 read back after all eight tiles are written is the tile written. -/
private theorem tile2 : v.readCov [P R7 w7, P R6 w6, P R5 w5, P R4 w4, P R3 w3, P R2 w2, P R1 w1, P R0 w0] R2.toLoadRect = w2 :=
  (View.readCov_cons_of_disjoint v (P R7 w7) _ R2.toLoadRect (dj 7168 2048 inb_S256x8192_S256x1024_0_7168 inb_S256x8192_S256x1024_0_2048 (by omega))).trans <|
  (View.readCov_cons_of_disjoint v (P R6 w6) _ R2.toLoadRect (dj 6144 2048 inb_S256x8192_S256x1024_0_6144 inb_S256x8192_S256x1024_0_2048 (by omega))).trans <|
  (View.readCov_cons_of_disjoint v (P R5 w5) _ R2.toLoadRect (dj 5120 2048 inb_S256x8192_S256x1024_0_5120 inb_S256x8192_S256x1024_0_2048 (by omega))).trans <|
  (View.readCov_cons_of_disjoint v (P R4 w4) _ R2.toLoadRect (dj 4096 2048 inb_S256x8192_S256x1024_0_4096 inb_S256x8192_S256x1024_0_2048 (by omega))).trans <|
  (View.readCov_cons_of_disjoint v (P R3 w3) _ R2.toLoadRect (dj 3072 2048 inb_S256x8192_S256x1024_0_3072 inb_S256x8192_S256x1024_0_2048 (by omega))).trans <|
  View.readCov_cons_toLoadRect v R2 w2 _

/-- Tile 1 read back after all eight tiles are written is the tile written. -/
private theorem tile1 : v.readCov [P R7 w7, P R6 w6, P R5 w5, P R4 w4, P R3 w3, P R2 w2, P R1 w1, P R0 w0] R1.toLoadRect = w1 :=
  (View.readCov_cons_of_disjoint v (P R7 w7) _ R1.toLoadRect (dj 7168 1024 inb_S256x8192_S256x1024_0_7168 inb_S256x8192_S256x1024_0_1024 (by omega))).trans <|
  (View.readCov_cons_of_disjoint v (P R6 w6) _ R1.toLoadRect (dj 6144 1024 inb_S256x8192_S256x1024_0_6144 inb_S256x8192_S256x1024_0_1024 (by omega))).trans <|
  (View.readCov_cons_of_disjoint v (P R5 w5) _ R1.toLoadRect (dj 5120 1024 inb_S256x8192_S256x1024_0_5120 inb_S256x8192_S256x1024_0_1024 (by omega))).trans <|
  (View.readCov_cons_of_disjoint v (P R4 w4) _ R1.toLoadRect (dj 4096 1024 inb_S256x8192_S256x1024_0_4096 inb_S256x8192_S256x1024_0_1024 (by omega))).trans <|
  (View.readCov_cons_of_disjoint v (P R3 w3) _ R1.toLoadRect (dj 3072 1024 inb_S256x8192_S256x1024_0_3072 inb_S256x8192_S256x1024_0_1024 (by omega))).trans <|
  (View.readCov_cons_of_disjoint v (P R2 w2) _ R1.toLoadRect (dj 2048 1024 inb_S256x8192_S256x1024_0_2048 inb_S256x8192_S256x1024_0_1024 (by omega))).trans <|
  View.readCov_cons_toLoadRect v R1 w1 _

/-- Tile 0 read back after all eight tiles are written is the tile written. -/
private theorem tile0 : v.readCov [P R7 w7, P R6 w6, P R5 w5, P R4 w4, P R3 w3, P R2 w2, P R1 w1, P R0 w0] R0.toLoadRect = w0 :=
  (View.readCov_cons_of_disjoint v (P R7 w7) _ R0.toLoadRect (dj 7168 0 inb_S256x8192_S256x1024_0_7168 inb_S256x8192_S256x1024_0_0 (by omega))).trans <|
  (View.readCov_cons_of_disjoint v (P R6 w6) _ R0.toLoadRect (dj 6144 0 inb_S256x8192_S256x1024_0_6144 inb_S256x8192_S256x1024_0_0 (by omega))).trans <|
  (View.readCov_cons_of_disjoint v (P R5 w5) _ R0.toLoadRect (dj 5120 0 inb_S256x8192_S256x1024_0_5120 inb_S256x8192_S256x1024_0_0 (by omega))).trans <|
  (View.readCov_cons_of_disjoint v (P R4 w4) _ R0.toLoadRect (dj 4096 0 inb_S256x8192_S256x1024_0_4096 inb_S256x8192_S256x1024_0_0 (by omega))).trans <|
  (View.readCov_cons_of_disjoint v (P R3 w3) _ R0.toLoadRect (dj 3072 0 inb_S256x8192_S256x1024_0_3072 inb_S256x8192_S256x1024_0_0 (by omega))).trans <|
  (View.readCov_cons_of_disjoint v (P R2 w2) _ R0.toLoadRect (dj 2048 0 inb_S256x8192_S256x1024_0_2048 inb_S256x8192_S256x1024_0_0 (by omega))).trans <|
  (View.readCov_cons_of_disjoint v (P R1 w1) _ R0.toLoadRect (dj 1024 0 inb_S256x8192_S256x1024_0_1024 inb_S256x8192_S256x1024_0_0 (by omega))).trans <|
  View.readCov_cons_toLoadRect v R0 w0 _

end tiles

/-- The zero offsets of a whole block, as a constant function. -/
private theorem hz : (![0, 0] : Fin 2 → Nat) = fun _ => 0 := funext fun a => by fin_cases a <;> rfl

/-- The soft choice block the body leaves. -/
theorem outC_eq (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x8192 .f32) (harg6 : arg6.IsWhole)
    (x0 : Vec F S256x256 .f32) (x1 : Vec F S8192x256 .f32) (x2 : Vec F S1x8192 .f32) :
    out0_A_3 c i arg1 harg1 arg2 harg2 arg3 harg3 arg4 harg4 arg5 harg5 arg6 harg6 x0 x1 x2 = Dag.outC x0 x1 x2 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  -- the one piece stored is the whole block, so what is left is its payload
  rw [View.canon_unit_zero hz]
  -- the loads of the three inputs read the three blocks
  simp only [View.readAt_eq_ld, harg1.read_unread, harg2.read_unread, harg3.read_unread]
  -- each score tile read back is the tile stored
  simp only [tile0, tile1, tile2, tile3, tile4, tile5, tile6, tile7]
  rfl

/-- The soft value block the body leaves. -/
theorem outV_eq (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x8192 .f32) (harg6 : arg6.IsWhole)
    (x0 : Vec F S256x256 .f32) (x1 : Vec F S8192x256 .f32) (x2 : Vec F S1x8192 .f32) :
    out0_A_4 c i arg1 harg1 arg2 harg2 arg3 harg3 arg4 harg4 arg5 harg5 arg6 harg6 x0 x1 x2 = Dag.outV x0 x1 x2 := by
  unfold out0_A_4
  rw [View.read_writes_eq_canon _ _ _ (cover0_A_4 c i arg1 harg1 arg2 harg2 arg3 harg3 arg4 harg4 arg5 harg5 arg6 harg6 x0 x1 x2)]
  unfold kernelRun0_A
  dsimp only
  sl_unfold_words
  rw [View.canon_unit_zero hz]
  simp only [View.readAt_eq_ld, harg1.read_unread, harg2.read_unread, harg3.read_unread]
  simp only [tile0, tile1, tile2, tile3, tile4, tile5, tile6, tile7]
  rfl

end Cert.KernelIdeal.Piece

end
-- ==== Proof.Tiles.lean ====
/-
  Eight tiles of 1024 make the 8192 candidates: candidate 1024 t + l is lane l of tile t. A sum, a maximum and a
  minimum over all candidates are the left-nested combination of the eight per-tile ones.
-/
import proofs.«136104_g88089779241353_cont_9to1c4b_404_4_alg».proof.Proof.Spec
import Mathlib.Algebra.BigOperators.Fin
import Mathlib.Algebra.BigOperators.Group.Finset.Sigma
import Mathlib.Data.Fintype.Prod
import Mathlib.Order.Lattice
import Mathlib.Data.Finset.Lattice.Prod
import Mathlib.Data.Finset.Lattice.Fold

noncomputable section

open scoped BigOperators

namespace Cert.Soft

/-- Lane l of tile t as a candidate. -/
def tl (t : Fin 8) (l : Fin 1024) : Fin 8192 := ⟨1024 * t.val + l.val, by have := t.isLt; have := l.isLt; omega⟩

theorem tl_val (t : Fin 8) (l : Fin 1024) : (tl t l).val = 1024 * t.val + l.val := rfl

/-- A tile and a lane name exactly one candidate: quotient and remainder by 1024 invert it. -/
private def tileEquiv : Fin 8 × Fin 1024 ≃ Fin 8192 where
  toFun p := tl p.1 p.2
  invFun k := (⟨k.val / 1024, by have := k.isLt; omega⟩, ⟨k.val % 1024, by omega⟩)
  left_inv p := by
    obtain ⟨t, l⟩ := p
    have := t.isLt
    have := l.isLt
    apply Prod.ext <;> apply Fin.ext <;> simp only [tl_val] <;> omega
  right_inv k := by
    apply Fin.ext
    simp only [tl_val]
    omega

/-- The eight tiles listed. -/
private theorem univ_eight : (Finset.univ : Finset (Fin 8)) = {0, 1, 2, 3, 4, 5, 6, 7} := by decide

/-- A sum over the candidates, tile by tile. -/
theorem sum_tiles {M : Type*} [AddCommMonoid M] (f : Fin 8192 → M) :
    ∑ k, f k = (∑ l, f (tl 0 l)) + (∑ l, f (tl 1 l)) + (∑ l, f (tl 2 l)) + (∑ l, f (tl 3 l))
      + (∑ l, f (tl 4 l)) + (∑ l, f (tl 5 l)) + (∑ l, f (tl 6 l)) + (∑ l, f (tl 7 l)) := by
  rw [← Equiv.sum_comp tileEquiv f, Fintype.sum_prod_type, Fin.sum_univ_eight]
  rfl

/-- A maximum over all candidates is the maximum over tiles of the per-tile maxima. -/
private theorem sup_tiles_aux (f : Fin 8192 → EReal) :
    Finset.univ.sup f = Finset.univ.sup fun t : Fin 8 => Finset.univ.sup fun l : Fin 1024 => f (tl t l) := by
  have h : (Finset.univ : Finset (Fin 8192)) = Finset.univ.map tileEquiv.toEmbedding :=
    (Finset.map_univ_equiv tileEquiv).symm
  rw [h, Finset.sup_map, ← Finset.univ_product_univ, Finset.sup_product_left]
  rfl

/-- A minimum over all candidates is the minimum over tiles of the per-tile minima. -/
private theorem inf_tiles_aux (f : Fin 8192 → EReal) :
    Finset.univ.inf f = Finset.univ.inf fun t : Fin 8 => Finset.univ.inf fun l : Fin 1024 => f (tl t l) := by
  have h : (Finset.univ : Finset (Fin 8192)) = Finset.univ.map tileEquiv.toEmbedding :=
    (Finset.map_univ_equiv tileEquiv).symm
  rw [h, Finset.inf_map, ← Finset.univ_product_univ, Finset.inf_product_left]
  rfl

/-- A maximum over the candidates, tile by tile. -/
theorem sup_tiles (f : Fin 8192 → EReal) :
    Finset.univ.sup f = max (max (max (max (max (max (max (Finset.univ.sup fun l => f (tl 0 l)) (Finset.univ.sup fun l => f (tl 1 l)))
      (Finset.univ.sup fun l => f (tl 2 l))) (Finset.univ.sup fun l => f (tl 3 l))) (Finset.univ.sup fun l => f (tl 4 l)))
      (Finset.univ.sup fun l => f (tl 5 l))) (Finset.univ.sup fun l => f (tl 6 l))) (Finset.univ.sup fun l => f (tl 7 l)) := by
  rw [sup_tiles_aux, univ_eight]
  simp only [Finset.sup_insert, Finset.sup_singleton, sup_assoc]

/-- A minimum over the candidates, tile by tile. -/
theorem inf_tiles (f : Fin 8192 → EReal) :
    Finset.univ.inf f = min (min (min (min (min (min (min (Finset.univ.inf fun l => f (tl 0 l)) (Finset.univ.inf fun l => f (tl 1 l)))
      (Finset.univ.inf fun l => f (tl 2 l))) (Finset.univ.inf fun l => f (tl 3 l))) (Finset.univ.inf fun l => f (tl 4 l)))
      (Finset.univ.inf fun l => f (tl 5 l))) (Finset.univ.inf fun l => f (tl 6 l))) (Finset.univ.inf fun l => f (tl 7 l)) := by
  rw [inf_tiles_aux, univ_eight]
  simp only [Finset.inf_insert, Finset.inf_singleton, inf_assoc]

end Cert.Soft

end
-- ==== Proof.KernelFirst.lean ====
/-
  The first pass of the body read at an index, at the ideal values: each kept score tile is the row's scores against
  that tile's candidates; the running maximum and minimum over the eight tiles are the row's maximum and minimum over
  all candidates; hence the temperature and the shift.
-/
import proofs.«136104_g88089779241353_cont_9to1c4b_404_4_alg».proof.Proof.KernelDag
import proofs.«136104_g88089779241353_cont_9to1c4b_404_4_alg».proof.Proof.Spec
import proofs.«136104_g88089779241353_cont_9to1c4b_404_4_alg».proof.Proof.Tiles
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.At

open Idealize.ShloMosaic Idealize.ShloMosaic.ValueIdx Cert.KernelIdeal Cert.KernelIdeal.Gen

/-- A block row's score against candidate k: ⟨x r, yq k⟩ + b k. -/
def blockScore (x0 : Vec Ideal S256x256 .f32) (x1 : Vec Ideal S8192x256 .f32) (x2 : Vec Ideal S1x8192 .f32)
    (r : Fin 256) (k : Fin 8192) : EReal :=
  (∑ d : Fin 256, x0 (ix2 r d) * x1 (ix2 k d)) + x2 (ix2 0 k)

/-! ### The score dot read at an index

Both operands contract their axis 1: at result index (r, l) and contraction position d the left operand is read at
(r, d) and the right at (l, d). -/

private theorem lhs_score_0 (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide),
    dif_pos (show (0 : Fin S256x256.rank) ∈ dot_S256x256_S1024x256_S256x1024_1_1_0_0_n_n.lhsNonContracting by decide)]
  rfl

private theorem lhs_score_1 (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q

private theorem rhs_score_0 (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide),
    dif_pos (show (0 : Fin S1024x256.rank) ∈ dot_S256x256_S1024x256_S256x1024_1_1_0_0_n_n.rhsNonContracting by decide)]
  rfl

private theorem rhs_score_1 (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

/-- The score dot into the zero tile: at (r, l) the inner product of row r of the block with row l of the tile. -/
private theorem dot_apply (V : FVec Ideal S256x256 .f32) (Y : FVec Ideal S1024x256 .f32) (r : Fin 256) (l : Fin 1024) :
    matmul (F := Ideal) dot_S256x256_S1024x256_S256x1024_1_1_0_0_n_n none V
        (shapeCast S1024x256 Y shapeCasts_S1024x256_S1024x256) (constant S256x1024 .f32 0x00000000#32) (ix2 r l)
      = ∑ d : Fin 256, V (ix2 r d) * Y (ix2 l d) := by
  rw [shapeCast_self]
  refine (Ideal.matmul_constant_zero_apply dot_S256x256_S1024x256_S256x1024_1_1_0_0_n_n none V Y (ix2 r l)).trans ?_
  rw [← Equiv.sum_comp (contrEquiv1 dot_S256x256_S1024x256_S256x1024_1_1_0_0_n_n 256 rfl rfl).symm]
  refine Finset.sum_congr rfl fun d _ => ?_
  have hk := contrEquiv1_symm_val dot_S256x256_S1024x256_S256x1024_1_1_0_0_n_n 256 rfl rfl d
  have el : dot_S256x256_S1024x256_S256x1024_1_1_0_0_n_n.lhsIdx (ix2 r l)
      ((contrEquiv1 dot_S256x256_S1024x256_S256x1024_1_1_0_0_n_n 256 rfl rfl).symm d) = ix2 r d :=
    funext fun a => Fin.ext (by
      match a with
      | ⟨0, _⟩ => exact lhs_score_0 _ _
      | ⟨1, _⟩ => exact (lhs_score_1 _ _).trans hk)
  have er : dot_S256x256_S1024x256_S256x1024_1_1_0_0_n_n.rhsIdx (ix2 r l)
      ((contrEquiv1 dot_S256x256_S1024x256_S256x1024_1_1_0_0_n_n 256 rfl rfl).symm d) = ix2 l d :=
    funext fun a => Fin.ext (by
      match a with
      | ⟨0, _⟩ => exact rhs_score_0 _ _
      | ⟨1, _⟩ => exact (rhs_score_1 _ _).trans hk)
  rw [el, er]

variable (x0 : Vec Ideal S256x256 .f32) (x1 : Vec Ideal S8192x256 .f32) (x2 : Vec Ideal S1x8192 .f32)

/-! ### The loads: the block whole, and tile t of the candidates and of the intercepts -/

private theorem v0_apply (r d : Fin 256) : Dag.v0 x0 (ix2 r d) = x0 (ix2 r d) :=
  congrArg x0 (funext fun a => Fin.ext (by
    match a with
    | ⟨0, _⟩ => show 0 + 1 * r.val = r.val; omega
    | ⟨1, _⟩ => show 0 + 1 * d.val = d.val; omega))

private theorem Y0_apply (l : Fin 1024) (d : Fin 256) : Dag.Y0 x1 (ix2 l d) = x1 (ix2 (Soft.tl 0 l) d) :=
  congrArg x1 (funext fun a => Fin.ext (by
    match a with
    | ⟨0, _⟩ => show 0 + 1 * l.val = 1024 * 0 + l.val; omega
    | ⟨1, _⟩ => show 0 + 1 * d.val = d.val; omega))

private theorem B0_apply (l : Fin 1024) : Dag.B0 x2 (ix2 0 l) = x2 (ix2 0 (Soft.tl 0 l)) :=
  congrArg x2 (funext fun a => Fin.ext (by
    match a with
    | ⟨0, _⟩ => rfl
    | ⟨1, _⟩ => show 0 + 1 * l.val = 1024 * 0 + l.val; omega))

private theorem Y1_apply (l : Fin 1024) (d : Fin 256) : Dag.Y1 x1 (ix2 l d) = x1 (ix2 (Soft.tl 1 l) d) :=
  congrArg x1 (funext fun a => Fin.ext (by
    match a with
    | ⟨0, _⟩ => show 1024 + 1 * l.val = 1024 * 1 + l.val; omega
    | ⟨1, _⟩ => show 0 + 1 * d.val = d.val; omega))

private theorem B1_apply (l : Fin 1024) : Dag.B1 x2 (ix2 0 l) = x2 (ix2 0 (Soft.tl 1 l)) :=
  congrArg x2 (funext fun a => Fin.ext (by
    match a with
    | ⟨0, _⟩ => rfl
    | ⟨1, _⟩ => show 1024 + 1 * l.val = 1024 * 1 + l.val; omega))

private theorem Y2_apply (l : Fin 1024) (d : Fin 256) : Dag.Y2 x1 (ix2 l d) = x1 (ix2 (Soft.tl 2 l) d) :=
  congrArg x1 (funext fun a => Fin.ext (by
    match a with
    | ⟨0, _⟩ => show 2048 + 1 * l.val = 1024 * 2 + l.val; omega
    | ⟨1, _⟩ => show 0 + 1 * d.val = d.val; omega))

private theorem B2_apply (l : Fin 1024) : Dag.B2 x2 (ix2 0 l) = x2 (ix2 0 (Soft.tl 2 l)) :=
  congrArg x2 (funext fun a => Fin.ext (by
    match a with
    | ⟨0, _⟩ => rfl
    | ⟨1, _⟩ => show 2048 + 1 * l.val = 1024 * 2 + l.val; omega))

private theorem Y3_apply (l : Fin 1024) (d : Fin 256) : Dag.Y3 x1 (ix2 l d) = x1 (ix2 (Soft.tl 3 l) d) :=
  congrArg x1 (funext fun a => Fin.ext (by
    match a with
    | ⟨0, _⟩ => show 3072 + 1 * l.val = 1024 * 3 + l.val; omega
    | ⟨1, _⟩ => show 0 + 1 * d.val = d.val; omega))

private theorem B3_apply (l : Fin 1024) : Dag.B3 x2 (ix2 0 l) = x2 (ix2 0 (Soft.tl 3 l)) :=
  congrArg x2 (funext fun a => Fin.ext (by
    match a with
    | ⟨0, _⟩ => rfl
    | ⟨1, _⟩ => show 3072 + 1 * l.val = 1024 * 3 + l.val; omega))

private theorem Y4_apply (l : Fin 1024) (d : Fin 256) : Dag.Y4 x1 (ix2 l d) = x1 (ix2 (Soft.tl 4 l) d) :=
  congrArg x1 (funext fun a => Fin.ext (by
    match a with
    | ⟨0, _⟩ => show 4096 + 1 * l.val = 1024 * 4 + l.val; omega
    | ⟨1, _⟩ => show 0 + 1 * d.val = d.val; omega))

private theorem B4_apply (l : Fin 1024) : Dag.B4 x2 (ix2 0 l) = x2 (ix2 0 (Soft.tl 4 l)) :=
  congrArg x2 (funext fun a => Fin.ext (by
    match a with
    | ⟨0, _⟩ => rfl
    | ⟨1, _⟩ => show 4096 + 1 * l.val = 1024 * 4 + l.val; omega))

private theorem Y5_apply (l : Fin 1024) (d : Fin 256) : Dag.Y5 x1 (ix2 l d) = x1 (ix2 (Soft.tl 5 l) d) :=
  congrArg x1 (funext fun a => Fin.ext (by
    match a with
    | ⟨0, _⟩ => show 5120 + 1 * l.val = 1024 * 5 + l.val; omega
    | ⟨1, _⟩ => show 0 + 1 * d.val = d.val; omega))

private theorem B5_apply (l : Fin 1024) : Dag.B5 x2 (ix2 0 l) = x2 (ix2 0 (Soft.tl 5 l)) :=
  congrArg x2 (funext fun a => Fin.ext (by
    match a with
    | ⟨0, _⟩ => rfl
    | ⟨1, _⟩ => show 5120 + 1 * l.val = 1024 * 5 + l.val; omega))

private theorem Y6_apply (l : Fin 1024) (d : Fin 256) : Dag.Y6 x1 (ix2 l d) = x1 (ix2 (Soft.tl 6 l) d) :=
  congrArg x1 (funext fun a => Fin.ext (by
    match a with
    | ⟨0, _⟩ => show 6144 + 1 * l.val = 1024 * 6 + l.val; omega
    | ⟨1, _⟩ => show 0 + 1 * d.val = d.val; omega))

private theorem B6_apply (l : Fin 1024) : Dag.B6 x2 (ix2 0 l) = x2 (ix2 0 (Soft.tl 6 l)) :=
  congrArg x2 (funext fun a => Fin.ext (by
    match a with
    | ⟨0, _⟩ => rfl
    | ⟨1, _⟩ => show 6144 + 1 * l.val = 1024 * 6 + l.val; omega))

private theorem Y7_apply (l : Fin 1024) (d : Fin 256) : Dag.Y7 x1 (ix2 l d) = x1 (ix2 (Soft.tl 7 l) d) :=
  congrArg x1 (funext fun a => Fin.ext (by
    match a with
    | ⟨0, _⟩ => show 7168 + 1 * l.val = 1024 * 7 + l.val; omega
    | ⟨1, _⟩ => show 0 + 1 * d.val = d.val; omega))

private theorem B7_apply (l : Fin 1024) : Dag.B7 x2 (ix2 0 l) = x2 (ix2 0 (Soft.tl 7 l)) :=
  congrArg x2 (funext fun a => Fin.ext (by
    match a with
    | ⟨0, _⟩ => rfl
    | ⟨1, _⟩ => show 7168 + 1 * l.val = 1024 * 7 + l.val; omega))

/-! ### A score tile at an index -/

/-- The dot plus the broadcast intercept row: at (r, l), the inner product of row r of the block with row l of the
    tile, plus the tile's intercept at l. -/
private theorem tile_apply (V : FVec Ideal S256x256 .f32) (Y : FVec Ideal S1024x256 .f32) (B : FVec Ideal S1x1024 .f32)
    (r : Fin 256) (l : Fin 1024) :
    addf (matmul (F := Ideal) dot_S256x256_S1024x256_S256x1024_1_1_0_0_n_n none V
        (shapeCast S1024x256 Y shapeCasts_S1024x256_S1024x256) (constant S256x1024 .f32 0x00000000#32))
      (broadcastTo S256x1024 B broadcasts_S1x1024_S256x1024) (ix2 r l)
      = (∑ d : Fin 256, V (ix2 r d) * Y (ix2 l d)) + B (ix2 0 l) := by
  refine (addf_apply _ _ _).trans ?_
  rw [dot_apply, broadcastTo_1b_ab_apply]

/-- With the block and tile t loaded, that is the row's score against candidate 1024 t + l. -/
private theorem score_of_loads (V : FVec Ideal S256x256 .f32) (Y : FVec Ideal S1024x256 .f32) (B : FVec Ideal S1x1024 .f32)
    (r : Fin 256) (l : Fin 1024) (t : Fin 8) (hV : ∀ d, V (ix2 r d) = x0 (ix2 r d))
    (hY : ∀ d, Y (ix2 l d) = x1 (ix2 (Soft.tl t l) d)) (hB : B (ix2 0 l) = x2 (ix2 0 (Soft.tl t l))) :
    (∑ d : Fin 256, V (ix2 r d) * Y (ix2 l d)) + B (ix2 0 l) = blockScore x0 x1 x2 r (Soft.tl t l) := by
  unfold blockScore
  rw [hB]
  exact congrArg (· + _) (Finset.sum_congr rfl fun d _ => by rw [hV d, hY d])

/-! ### The eight tiles as the body computes them, before the identity cast under which they are kept -/

private theorem sc0 (r : Fin 256) (l : Fin 1024) :
    k0_pay2 (Dag.v0 x0) (Dag.Y0 x1) (Dag.B0 x2) (ix2 r l) = blockScore x0 x1 x2 r (Soft.tl 0 l) := by
  unfold k0_pay2
  exact (tile_apply (Dag.v0 x0) (Dag.Y0 x1) (Dag.B0 x2) r l).trans
    (score_of_loads x0 x1 x2 _ _ _ r l 0 (v0_apply x0 r) (Y0_apply x1 l) (B0_apply x2 l))

private theorem sc1 (r : Fin 256) (l : Fin 1024) :
    k0_pay4 (Dag.v0 x0) (Dag.Y1 x1) (Dag.B1 x2) (ix2 r l) = blockScore x0 x1 x2 r (Soft.tl 1 l) := by
  unfold k0_pay4
  exact (tile_apply (Dag.v0 x0) (Dag.Y1 x1) (Dag.B1 x2) r l).trans
    (score_of_loads x0 x1 x2 _ _ _ r l 1 (v0_apply x0 r) (Y1_apply x1 l) (B1_apply x2 l))

private theorem sc2 (r : Fin 256) (l : Fin 1024) :
    k0_pay9 (Dag.v31 x0 x1) (Dag.B2 x2) (ix2 r l) = blockScore x0 x1 x2 r (Soft.tl 2 l) := by
  unfold k0_pay9 Dag.v31 k0_pay8
  exact (tile_apply (Dag.v0 x0) (Dag.Y2 x1) (Dag.B2 x2) r l).trans
    (score_of_loads x0 x1 x2 _ _ _ r l 2 (v0_apply x0 r) (Y2_apply x1 l) (B2_apply x2 l))

private theorem sc3 (r : Fin 256) (l : Fin 1024) :
    k0_pay11 (Dag.v0 x0) (Dag.Y3 x1) (Dag.B3 x2) (ix2 r l) = blockScore x0 x1 x2 r (Soft.tl 3 l) := by
  unfold k0_pay11
  exact (tile_apply (Dag.v0 x0) (Dag.Y3 x1) (Dag.B3 x2) r l).trans
    (score_of_loads x0 x1 x2 _ _ _ r l 3 (v0_apply x0 r) (Y3_apply x1 l) (B3_apply x2 l))

private theorem sc4 (r : Fin 256) (l : Fin 1024) :
    k0_pay15 (Dag.v0 x0) (Dag.Y4 x1) (Dag.B4 x2) (ix2 r l) = blockScore x0 x1 x2 r (Soft.tl 4 l) := by
  unfold k0_pay15
  exact (tile_apply (Dag.v0 x0) (Dag.Y4 x1) (Dag.B4 x2) r l).trans
    (score_of_loads x0 x1 x2 _ _ _ r l 4 (v0_apply x0 r) (Y4_apply x1 l) (B4_apply x2 l))

private theorem sc5 (r : Fin 256) (l : Fin 1024) :
    k0_pay17 (Dag.v0 x0) (Dag.Y5 x1) (Dag.B5 x2) (ix2 r l) = blockScore x0 x1 x2 r (Soft.tl 5 l) := by
  unfold k0_pay17
  exact (tile_apply (Dag.v0 x0) (Dag.Y5 x1) (Dag.B5 x2) r l).trans
    (score_of_loads x0 x1 x2 _ _ _ r l 5 (v0_apply x0 r) (Y5_apply x1 l) (B5_apply x2 l))

private theorem sc6 (r : Fin 256) (l : Fin 1024) :
    k0_pay19 (Dag.v0 x0) (Dag.Y6 x1) (Dag.B6 x2) (ix2 r l) = blockScore x0 x1 x2 r (Soft.tl 6 l) := by
  unfold k0_pay19
  exact (tile_apply (Dag.v0 x0) (Dag.Y6 x1) (Dag.B6 x2) r l).trans
    (score_of_loads x0 x1 x2 _ _ _ r l 6 (v0_apply x0 r) (Y6_apply x1 l) (B6_apply x2 l))

private theorem sc7 (r : Fin 256) (l : Fin 1024) :
    k0_pay23 (Dag.v0 x0) (Dag.Y7 x1) (Dag.B7 x2) (ix2 r l) = blockScore x0 x1 x2 r (Soft.tl 7 l) := by
  unfold k0_pay23
  exact (tile_apply (Dag.v0 x0) (Dag.Y7 x1) (Dag.B7 x2) r l).trans
    (score_of_loads x0 x1 x2 _ _ _ r l 7 (v0_apply x0 r) (Y7_apply x1 l) (B7_apply x2 l))

/-! ### The lane maximum and minimum of a tile, with the kept unit axis -/

private theorem lift_lane (r : Fin 256) (l : Fin 1024) :
    reduces_S256x1024_S256.lift (a := (1 : Fin S256x1024.rank)) (ix1 r) l = ix2 r l :=
  funext fun a => Fin.ext (by
    match a with
    | ⟨0, _⟩ => rfl
    | ⟨1, _⟩ => rfl)

private theorem neg_inf_bits : FloatOps.ofBits (F := Ideal) .f32 0xFF800000#32 = (⊥ : EReal) := by
  simp [Ideal.ofBits, Ideal.ieee]

private theorem pos_inf_bits : FloatOps.ofBits (F := Ideal) .f32 0x7F800000#32 = (⊤ : EReal) := by
  simp [Ideal.ofBits, Ideal.ieee]

/-- The [256] → [256, 1] cast read at (r, 0) is the operand at r. -/
private theorem keep_apply (w : FVec Ideal S256 .f32) (r : Fin 256) :
    shapeCast S256x1 w shapeCasts_S256_S256x1 (ix2 r 0) = w (ix1 r) :=
  shapeCast_apply w shapeCasts_S256_S256x1 (ix2 r 0) (ix1 r) (by
    rw [Shape.rowMajor_val_one, Shape.rowMajor_val_two]
    show r.val = r.val * 1 + 0
    omega)

/-- A tile's row maximum from -∞ is the supremum of the row over the lanes. -/
private theorem rowmax_apply (T : FVec Ideal S256x1024 .f32) (r : Fin 256) :
    shapeCast S256x1 (multiReduction .maximumf [1] S256 T 0xFF800000#32 reduces_S256x1024_S256 (.inl rfl) rfl)
      shapeCasts_S256_S256x1 (ix2 r 0) = Finset.univ.sup fun l : Fin 1024 => T (ix2 r l) := by
  refine (keep_apply _ r).trans ?_
  refine (Ideal.multiReduction_maximumf_single T (0xFF800000#32) reduces_S256x1024_S256 (.inl rfl) rfl (ix1 r)).trans ?_
  rw [neg_inf_bits]
  unfold Finset.sup
  exact Finset.fold_congr fun l _ => congrArg T (lift_lane r l)

/-- A tile's row minimum from +∞ is the infimum of the row over the lanes. -/
private theorem rowmin_apply (T : FVec Ideal S256x1024 .f32) (r : Fin 256) :
    shapeCast S256x1 (multiReduction .minimumf [1] S256 T 0x7F800000#32 reduces_S256x1024_S256 (.inl rfl) rfl)
      shapeCasts_S256_S256x1 (ix2 r 0) = Finset.univ.inf fun l : Fin 1024 => T (ix2 r l) := by
  refine (keep_apply _ r).trans ?_
  refine (multiReduction_minimumf_eq_fold T (0x7F800000#32) reduces_S256x1024_S256 (.inl rfl) rfl (ix1 r)).trans ?_
  refine (reduces_S256x1024_S256.fold_filter_drop_single _ _ T (ix1 r)).trans ?_
  rw [pos_inf_bits]
  unfold Finset.inf
  exact Finset.fold_congr fun l _ => congrArg T (lift_lane r l)

/-! ### The running maximum and minimum over the tiles -/

/-- Row r's maximum score over tile t. -/
private abbrev tmax (r : Fin 256) (t : Fin 8) : EReal :=
  Finset.univ.sup fun l : Fin 1024 => blockScore x0 x1 x2 r (Soft.tl t l)

/-- Row r's minimum score over tile t. -/
private abbrev tmin (r : Fin 256) (t : Fin 8) : EReal :=
  Finset.univ.inf fun l : Fin 1024 => blockScore x0 x1 x2 r (Soft.tl t l)

private theorem rowmax_of (T : FVec Ideal S256x1024 .f32) (r : Fin 256) (t : Fin 8)
    (hT : ∀ l, T (ix2 r l) = blockScore x0 x1 x2 r (Soft.tl t l)) :
    shapeCast S256x1 (multiReduction .maximumf [1] S256 T 0xFF800000#32 reduces_S256x1024_S256 (.inl rfl) rfl) shapeCasts_S256_S256x1 (ix2 r 0) = tmax x0 x1 x2 r t :=
  (rowmax_apply T r).trans (congrArg (Finset.sup Finset.univ) (funext hT))

private theorem rowmin_of (T : FVec Ideal S256x1024 .f32) (r : Fin 256) (t : Fin 8)
    (hT : ∀ l, T (ix2 r l) = blockScore x0 x1 x2 r (Soft.tl t l)) :
    shapeCast S256x1 (multiReduction .minimumf [1] S256 T 0x7F800000#32 reduces_S256x1024_S256 (.inl rfl) rfl) shapeCasts_S256_S256x1 (ix2 r 0) = tmin x0 x1 x2 r t :=
  (rowmin_apply T r).trans (congrArg (Finset.inf Finset.univ) (funext hT))

private theorem v27_apply (r : Fin 256) :
    Dag.v27 x0 x1 x2 (ix2 r 0) = max (tmax x0 x1 x2 r 0) (tmax x0 x1 x2 r 1) := by
  unfold Dag.v27 k0_pay6
  refine (maximumf_apply _ _ _).trans ?_
  exact congrArg₂ max (rowmax_of x0 x1 x2 _ r 0 (sc0 x0 x1 x2 r)) (rowmax_of x0 x1 x2 _ r 1 (sc1 x0 x1 x2 r))

private theorem v28_apply (r : Fin 256) :
    Dag.v28 x0 x1 x2 (ix2 r 0) = min (tmin x0 x1 x2 r 0) (tmin x0 x1 x2 r 1) := by
  unfold Dag.v28 k0_pay7
  refine (minimumf_apply _ _ _).trans ?_
  exact congrArg₂ min (rowmin_of x0 x1 x2 _ r 0 (sc0 x0 x1 x2 r)) (rowmin_of x0 x1 x2 _ r 1 (sc1 x0 x1 x2 r))

private theorem v57_apply (r : Fin 256) :
    Dag.v57 x0 x1 x2 (ix2 r 0) = max (max (max (tmax x0 x1 x2 r 0) (tmax x0 x1 x2 r 1)) (tmax x0 x1 x2 r 2)) (tmax x0 x1 x2 r 3) := by
  unfold Dag.v57 k0_pay13
  refine (maximumf_apply _ _ _).trans (congrArg₂ max ?_ (rowmax_of x0 x1 x2 _ r 3 (sc3 x0 x1 x2 r)))
  refine (maximumf_apply _ _ _).trans ?_
  exact congrArg₂ max (v27_apply x0 x1 x2 r) (rowmax_of x0 x1 x2 _ r 2 (sc2 x0 x1 x2 r))

private theorem v58_apply (r : Fin 256) :
    Dag.v58 x0 x1 x2 (ix2 r 0) = min (min (min (tmin x0 x1 x2 r 0) (tmin x0 x1 x2 r 1)) (tmin x0 x1 x2 r 2)) (tmin x0 x1 x2 r 3) := by
  unfold Dag.v58 k0_pay14
  refine (minimumf_apply _ _ _).trans (congrArg₂ min ?_ (rowmin_of x0 x1 x2 _ r 3 (sc3 x0 x1 x2 r)))
  refine (minimumf_apply _ _ _).trans ?_
  exact congrArg₂ min (v28_apply x0 x1 x2 r) (rowmin_of x0 x1 x2 _ r 2 (sc2 x0 x1 x2 r))

private theorem v102_apply (r : Fin 256) :
    Dag.v102 x0 x1 x2 (ix2 r 0) = max (max (max (max (max (max (tmax x0 x1 x2 r 0) (tmax x0 x1 x2 r 1)) (tmax x0 x1 x2 r 2))
      (tmax x0 x1 x2 r 3)) (tmax x0 x1 x2 r 4)) (tmax x0 x1 x2 r 5)) (tmax x0 x1 x2 r 6) := by
  unfold Dag.v102 Dag.v64 k0_pay21
  refine (maximumf_apply _ _ _).trans (congrArg₂ max ?_ (rowmax_of x0 x1 x2 _ r 6 (sc6 x0 x1 x2 r)))
  refine (maximumf_apply _ _ _).trans (congrArg₂ max ?_ (rowmax_of x0 x1 x2 _ r 5 (sc5 x0 x1 x2 r)))
  refine (maximumf_apply _ _ _).trans ?_
  exact congrArg₂ max (v57_apply x0 x1 x2 r) (rowmax_of x0 x1 x2 _ r 4 (sc4 x0 x1 x2 r))

private theorem v103_apply (r : Fin 256) :
    Dag.v103 x0 x1 x2 (ix2 r 0) = min (min (min (min (min (min (tmin x0 x1 x2 r 0) (tmin x0 x1 x2 r 1)) (tmin x0 x1 x2 r 2))
      (tmin x0 x1 x2 r 3)) (tmin x0 x1 x2 r 4)) (tmin x0 x1 x2 r 5)) (tmin x0 x1 x2 r 6) := by
  unfold Dag.v103 Dag.v64 k0_pay22
  refine (minimumf_apply _ _ _).trans (congrArg₂ min ?_ (rowmin_of x0 x1 x2 _ r 6 (sc6 x0 x1 x2 r)))
  refine (minimumf_apply _ _ _).trans (congrArg₂ min ?_ (rowmin_of x0 x1 x2 _ r 5 (sc5 x0 x1 x2 r)))
  refine (minimumf_apply _ _ _).trans ?_
  exact congrArg₂ min (v58_apply x0 x1 x2 r) (rowmin_of x0 x1 x2 _ r 4 (sc4 x0 x1 x2 r))

/-- After the last tile the running maximum is the row's maximum over all candidates. -/
private theorem rmax_apply (r : Fin 256) :
    k0_pay25 (Dag.v0 x0) (Dag.v102 x0 x1 x2) (Dag.Y7 x1) (Dag.B7 x2) (ix2 r 0) = Soft.rmax (blockScore x0 x1 x2 r) := by
  unfold k0_pay25
  refine (maximumf_apply _ _ _).trans ?_
  refine (congrArg₂ max (v102_apply x0 x1 x2 r) (rowmax_of x0 x1 x2 _ r 7 (sc7 x0 x1 x2 r))).trans ?_
  exact (Soft.sup_tiles (blockScore x0 x1 x2 r)).symm

/-- And the running minimum is the row's minimum over all candidates. -/
private theorem rmin_apply (r : Fin 256) :
    minimumf (Dag.v103 x0 x1 x2) (shapeCast S256x1 (multiReduction .minimumf [1] S256 (k0_pay23 (Dag.v0 x0) (Dag.Y7 x1) (Dag.B7 x2)) 0x7F800000#32 reduces_S256x1024_S256 (.inl rfl) rfl) shapeCasts_S256_S256x1) (ix2 r 0)
      = Soft.rmin (blockScore x0 x1 x2 r) := by
  refine (minimumf_apply _ _ _).trans ?_
  refine (congrArg₂ min (v103_apply x0 x1 x2 r) (rowmin_of x0 x1 x2 _ r 7 (sc7 x0 x1 x2 r))).trans ?_
  exact (Soft.inf_tiles (blockScore x0 x1 x2 r)).symm

/-! ### The score tiles as kept -/

/-- Score tile 0 at row r, lane l is the row's score against candidate 1024·0 + l. -/
theorem st0_apply (r : Fin 256) (l : Fin 1024) : Dag.st0 x0 x1 x2 (ix2 r l) = blockScore x0 x1 x2 r (Soft.tl 0 l) := by
  unfold Dag.st0 k0_pay3
  rw [shapeCast_self]
  exact sc0 x0 x1 x2 r l

/-- Score tile 1 at row r, lane l is the row's score against candidate 1024·1 + l. -/
theorem st1_apply (r : Fin 256) (l : Fin 1024) : Dag.st1 x0 x1 x2 (ix2 r l) = blockScore x0 x1 x2 r (Soft.tl 1 l) := by
  unfold Dag.st1 k0_pay5
  rw [shapeCast_self]
  exact sc1 x0 x1 x2 r l

/-- Score tile 2 at row r, lane l is the row's score against candidate 1024·2 + l. -/
theorem st2_apply (r : Fin 256) (l : Fin 1024) : Dag.st2 x0 x1 x2 (ix2 r l) = blockScore x0 x1 x2 r (Soft.tl 2 l) := by
  unfold Dag.st2 k0_pay10
  rw [shapeCast_self]
  exact sc2 x0 x1 x2 r l

/-- Score tile 3 at row r, lane l is the row's score against candidate 1024·3 + l. -/
theorem st3_apply (r : Fin 256) (l : Fin 1024) : Dag.st3 x0 x1 x2 (ix2 r l) = blockScore x0 x1 x2 r (Soft.tl 3 l) := by
  unfold Dag.st3 k0_pay12
  rw [shapeCast_self]
  exact sc3 x0 x1 x2 r l

/-- Score tile 4 at row r, lane l is the row's score against candidate 1024·4 + l. -/
theorem st4_apply (r : Fin 256) (l : Fin 1024) : Dag.st4 x0 x1 x2 (ix2 r l) = blockScore x0 x1 x2 r (Soft.tl 4 l) := by
  unfold Dag.st4 k0_pay16
  rw [shapeCast_self]
  exact sc4 x0 x1 x2 r l

/-- Score tile 5 at row r, lane l is the row's score against candidate 1024·5 + l. -/
theorem st5_apply (r : Fin 256) (l : Fin 1024) : Dag.st5 x0 x1 x2 (ix2 r l) = blockScore x0 x1 x2 r (Soft.tl 5 l) := by
  unfold Dag.st5 k0_pay18
  rw [shapeCast_self]
  exact sc5 x0 x1 x2 r l

/-- Score tile 6 at row r, lane l is the row's score against candidate 1024·6 + l. -/
theorem st6_apply (r : Fin 256) (l : Fin 1024) : Dag.st6 x0 x1 x2 (ix2 r l) = blockScore x0 x1 x2 r (Soft.tl 6 l) := by
  unfold Dag.st6 k0_pay20
  rw [shapeCast_self]
  exact sc6 x0 x1 x2 r l

/-- Score tile 7 at row r, lane l is the row's score against candidate 1024·7 + l. -/
theorem st7_apply (r : Fin 256) (l : Fin 1024) : Dag.st7 x0 x1 x2 (ix2 r l) = blockScore x0 x1 x2 r (Soft.tl 7 l) := by
  unfold Dag.st7 k0_pay24
  rw [shapeCast_self]
  exact sc7 x0 x1 x2 r l

/-! ### The temperature and the shift -/

/-- The temperature of row r. -/
theorem v127_apply (r : Fin 256) : Dag.v127 x0 x1 x2 (ix2 r 0) = Soft.effOf (blockScore x0 x1 x2 r) := by
  unfold Dag.v127 k0_pay26 Soft.effOf Soft.eff
  refine (minimumf_apply _ _ _).trans (congrArg₂ min rfl ?_)
  refine (maximumf_apply _ _ _).trans (congrArg₂ max rfl ?_)
  refine (divf_apply _ _ _).trans (congrArg₂ Ideal.div rfl ?_)
  refine (maximumf_apply _ _ _).trans (congrArg₂ max ?_ rfl)
  refine (subf_apply _ _ _).trans ?_
  exact congrArg₂ (· - ·) (rmax_apply x0 x1 x2 r) (rmin_apply x0 x1 x2 r)

/-- The shift of row r: maximum · temperature. -/
theorem v128_apply (r : Fin 256) :
    Dag.v128 x0 x1 x2 (ix2 r 0) = Soft.rmax (blockScore x0 x1 x2 r) * Soft.effOf (blockScore x0 x1 x2 r) := by
  unfold Dag.v128 k0_pay27
  refine (mulf_apply _ _ _).trans ?_
  exact congrArg₂ (· * ·) (rmax_apply x0 x1 x2 r) (v127_apply x0 x1 x2 r)

end Cert.KernelIdeal.At

end
-- ==== Proof.KernelSecond.lean ====
/-
  The second pass of the body read at an index, at the ideal values: per tile the weights exp (score · eff − shift),
  their row sums, the row sums of weight · score and the products weight · candidates, accumulated over the eight
  tiles from zero, are the sums over all candidates; scaled by the reciprocal of the sum of weights they are the
  kernel's form of the soft value and of the soft choice.
-/
import proofs.«136104_g88089779241353_cont_9to1c4b_404_4_alg».proof.Proof.KernelFirst
import proofs.«136104_g88089779241353_cont_9to1c4b_404_4_alg».proof.Proof.Spec
import proofs.«136104_g88089779241353_cont_9to1c4b_404_4_alg».proof.Proof.Tiles
import Idealize.ShloMosaic.Lib.ValueIdx
import Idealize.ShloMosaic.Lib.Pipeline.Value
import Idealize.ShloMosaic.PureOps.Ideal.Laws
import Mathlib.Algebra.BigOperators.Group.Finset.Defs
import Mathlib.Algebra.BigOperators.Group.Finset.Basic

noncomputable section

open scoped BigOperators

namespace Cert.KernelIdeal.At

open Idealize.ShloMosaic Idealize.ShloMosaic.ValueIdx Cert.KernelIdeal Cert.KernelIdeal.Gen

/-! ### The body's operations read at an index -/

/-- A column spread along 1024 lanes reads the column's entry of the row. -/
private theorem bcast_lane (c : FVec Ideal S256x1 .f32) (r : Fin 256) (l : Fin 1024) :
    broadcastTo S256x1024 c broadcasts_S256x1_S256x1024 (ix2 r l) = c (ix2 r 0) :=
  broadcastTo_apply c broadcasts_S256x1_S256x1024 (ix2 r l) (ix2 r 0) (fun a => match a with
    | ⟨0, _⟩ => by show r.val = if (256 : Nat) = 1 then 0 else r.val; rw [if_neg (by decide)]
    | ⟨1, _⟩ => by show 0 = if (1 : Nat) = 1 then 0 else l.val; rw [if_pos rfl])

/-- A column spread along 256 coordinates reads the column's entry of the row. -/
private theorem bcast_coord (c : FVec Ideal S256x1 .f32) (r j : Fin 256) :
    broadcastTo S256x256 c broadcasts_S256x1_S256x256 (ix2 r j) = c (ix2 r 0) :=
  broadcastTo_apply c broadcasts_S256x1_S256x256 (ix2 r j) (ix2 r 0) (fun a => match a with
    | ⟨0, _⟩ => by show r.val = if (256 : Nat) = 1 then 0 else r.val; rw [if_neg (by decide)]
    | ⟨1, _⟩ => by show 0 = if (1 : Nat) = 1 then 0 else j.val; rw [if_pos rfl])

/-- A weights tile: exp (score · temperature − shift), entry by entry. -/
private theorem wt_apply (eff c : FVec Ideal S256x1 .f32) (s : Vec Ideal S256x1024 .f32) (r : Fin 256) (l : Fin 1024) :
    exp (subf (mulf s (broadcastTo S256x1024 eff broadcasts_S256x1_S256x1024))
        (broadcastTo S256x1024 c broadcasts_S256x1_S256x1024)) (ix2 r l)
      = Ideal.exp (s (ix2 r l) * eff (ix2 r 0) - c (ix2 r 0)) := by
  show Ideal.exp (s (ix2 r l) * broadcastTo S256x1024 eff broadcasts_S256x1_S256x1024 (ix2 r l)
      - broadcastTo S256x1024 c broadcasts_S256x1_S256x1024 (ix2 r l)) = _
  rw [bcast_lane, bcast_lane]

/-- A sum along the lanes, kept as a column. -/
private theorem lanesum_apply (e : FVec Ideal S256x1024 .f32) (r : Fin 256) :
    shapeCast S256x1 (multiReduction .add [1] S256 e 0x00000000#32 reduces_S256x1024_S256 (.inl rfl) rfl)
        shapeCasts_S256_S256x1 (ix2 r 0)
      = ∑ l : Fin 1024, e (ix2 r l) := by
  refine (shapeCast_apply _ shapeCasts_S256_S256x1 (ix2 r 0) (ix1 r) ?_).trans ?_
  · rw [Shape.rowMajor_val_one, Shape.rowMajor_val_two]
    show r.val = r.val * 1 + 0
    omega
  · refine (Ideal.multiReduction_add_single e _ reduces_S256x1024_S256 (.inl rfl) rfl (ix1 r)).trans ?_
    refine Finset.sum_congr rfl fun l _ => congrArg e ?_
    funext a
    match a with
    | ⟨0, _⟩ => rfl
    | ⟨1, _⟩ => rfl

/-! ### The product of a weights tile with a tile of candidates -/

private theorem lhs_ax0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
private theorem lhs_ax1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
private theorem rhs_ax0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
private theorem rhs_ax1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- Weights times candidates, from zero: at (r, j) the sum over the lanes of weight · candidate coordinate. -/
private theorem wy_apply (e : FVec Ideal S256x1024 .f32) (Y : Vec Ideal S1024x256 .f32) (r j : Fin 256) :
    matmul dot_S256x1024_S1024x256_S256x256_1_0_0_1_n_n none e (shapeCast S1024x256 Y shapeCasts_S1024x256_S1024x256 : FVec Ideal S1024x256 .f32)
        (constant S256x256 .f32 0x00000000#32) (ix2 r j)
      = ∑ l : Fin 1024, e (ix2 r l) * Y (ix2 l j) := by
  rw [shapeCast_self]
  refine (Ideal.matmul_constant_zero_apply dot_S256x1024_S1024x256_S256x256_1_0_0_1_n_n none e Y (ix2 r j)).trans ?_
  rw [← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 r j) ((contrEquiv1 dot_S256x1024_S1024x256_S256x256_1_0_0_1_n_n 1024 rfl rfl).symm k) = ix2 r k := funext fun a => Fin.ext (by
    match a with
    | ⟨0, _⟩ => exact lhs_ax0 _ _
    | ⟨1, _⟩ => exact (lhs_ax1 _ _).trans hk)
  have er : dot_S256x1024_S1024x256_S256x256_1_0_0_1_n_n.rhsIdx (ix2 r j) ((contrEquiv1 dot_S256x1024_S1024x256_S256x256_1_0_0_1_n_n 1024 rfl rfl).symm k) = ix2 k j := funext fun a => Fin.ext (by
    match a with
    | ⟨0, _⟩ => exact (rhs_ax0 _ _).trans hk
    | ⟨1, _⟩ => exact rhs_ax1 _ _)
  rw [el, er]

/-- The reciprocal column: the literal 1 over the entry. -/
private theorem recip_apply (D : FVec Ideal S256x1 .f32) (r : Fin 256) :
    divf (broadcast S256x1 (Scalar.ofBits (F := Ideal) .f32 0x3F800000#32)) D (ix2 r 0) = Ideal.div Soft.one (D (ix2 r 0)) := rfl

/-- The zero block and the zero column read 0. -/
private theorem zero_col (i : S256x1.Idx) : broadcast S256x1 (Scalar.ofBits (F := Ideal) .f32 0x00000000#32) i = 0 :=
  Ideal.ofBits_zero_f32
private theorem zero_blk (i : S256x256.Idx) : broadcast S256x256 (Scalar.ofBits (F := Ideal) .f32 0x00000000#32) i = 0 :=
  Ideal.ofBits_zero_f32

/-! ### The tiles of the candidate set -/

private theorem Y0_apply (x1 : Vec Ideal S8192x256 .f32) (l : Fin 1024) (j : Fin 256) :
    Dag.Y0 x1 (ix2 l j) = Soft.col x1 j (Soft.tl 0 l) :=
  congrArg x1 (funext fun a => Fin.ext (by
    match a with
    | ⟨0, _⟩ => show 0 + 1 * l.val = 1024 * 0 + l.val; omega
    | ⟨1, _⟩ => show 0 + 1 * j.val = j.val; omega))
private theorem Y1_apply (x1 : Vec Ideal S8192x256 .f32) (l : Fin 1024) (j : Fin 256) :
    Dag.Y1 x1 (ix2 l j) = Soft.col x1 j (Soft.tl 1 l) :=
  congrArg x1 (funext fun a => Fin.ext (by
    match a with
    | ⟨0, _⟩ => show 1024 + 1 * l.val = 1024 * 1 + l.val; omega
    | ⟨1, _⟩ => show 0 + 1 * j.val = j.val; omega))
private theorem Y2_apply (x1 : Vec Ideal S8192x256 .f32) (l : Fin 1024) (j : Fin 256) :
    Dag.Y2 x1 (ix2 l j) = Soft.col x1 j (Soft.tl 2 l) :=
  congrArg x1 (funext fun a => Fin.ext (by
    match a with
    | ⟨0, _⟩ => show 2048 + 1 * l.val = 1024 * 2 + l.val; omega
    | ⟨1, _⟩ => show 0 + 1 * j.val = j.val; omega))
private theorem Y3_apply (x1 : Vec Ideal S8192x256 .f32) (l : Fin 1024) (j : Fin 256) :
    Dag.Y3 x1 (ix2 l j) = Soft.col x1 j (Soft.tl 3 l) :=
  congrArg x1 (funext fun a => Fin.ext (by
    match a with
    | ⟨0, _⟩ => show 3072 + 1 * l.val = 1024 * 3 + l.val; omega
    | ⟨1, _⟩ => show 0 + 1 * j.val = j.val; omega))
private theorem Y4_apply (x1 : Vec Ideal S8192x256 .f32) (l : Fin 1024) (j : Fin 256) :
    Dag.Y4 x1 (ix2 l j) = Soft.col x1 j (Soft.tl 4 l) :=
  congrArg x1 (funext fun a => Fin.ext (by
    match a with
    | ⟨0, _⟩ => show 4096 + 1 * l.val = 1024 * 4 + l.val; omega
    | ⟨1, _⟩ => show 0 + 1 * j.val = j.val; omega))
private theorem Y5_apply (x1 : Vec Ideal S8192x256 .f32) (l : Fin 1024) (j : Fin 256) :
    Dag.Y5 x1 (ix2 l j) = Soft.col x1 j (Soft.tl 5 l) :=
  congrArg x1 (funext fun a => Fin.ext (by
    match a with
    | ⟨0, _⟩ => show 5120 + 1 * l.val = 1024 * 5 + l.val; omega
    | ⟨1, _⟩ => show 0 + 1 * j.val = j.val; omega))
private theorem Y6_apply (x1 : Vec Ideal S8192x256 .f32) (l : Fin 1024) (j : Fin 256) :
    Dag.Y6 x1 (ix2 l j) = Soft.col x1 j (Soft.tl 6 l) :=
  congrArg x1 (funext fun a => Fin.ext (by
    match a with
    | ⟨0, _⟩ => show 6144 + 1 * l.val = 1024 * 6 + l.val; omega
    | ⟨1, _⟩ => show 0 + 1 * j.val = j.val; omega))
private theorem Y7_apply (x1 : Vec Ideal S8192x256 .f32) (l : Fin 1024) (j : Fin 256) :
    Dag.Y7 x1 (ix2 l j) = Soft.col x1 j (Soft.tl 7 l) :=
  congrArg x1 (funext fun a => Fin.ext (by
    match a with
    | ⟨0, _⟩ => show 7168 + 1 * l.val = 1024 * 7 + l.val; omega
    | ⟨1, _⟩ => show 0 + 1 * j.val = j.val; omega))

/-! ### Accumulating a tile's sums onto what came before -/

/-- Adding a tile's row sums to a column. -/
private theorem acc_w (acc : FVec Ideal S256x1 .f32) (e : FVec Ideal S256x1024 .f32) (r : Fin 256) :
    addf acc (shapeCast S256x1 (multiReduction .add [1] S256 e 0x00000000#32 reduces_S256x1024_S256 (.inl rfl) rfl)
        shapeCasts_S256_S256x1) (ix2 r 0)
      = acc (ix2 r 0) + ∑ l : Fin 1024, e (ix2 r l) :=
  congrArg (acc (ix2 r 0) + ·) (lanesum_apply e r)

/-- Adding a tile's row sums of weight · score to a column. -/
private theorem acc_ws (acc : FVec Ideal S256x1 .f32) (e : FVec Ideal S256x1024 .f32) (S : Vec Ideal S256x1024 .f32)
    (r : Fin 256) :
    addf acc (shapeCast S256x1 (multiReduction .add [1] S256 (mulf e S) 0x00000000#32 reduces_S256x1024_S256 (.inl rfl) rfl)
        shapeCasts_S256_S256x1) (ix2 r 0)
      = acc (ix2 r 0) + ∑ l : Fin 1024, e (ix2 r l) * S (ix2 r l) :=
  acc_w acc (mulf e S) r

/-- Adding a tile's weights · candidates to a block. -/
private theorem acc_wy (acc : FVec Ideal S256x256 .f32) (e : FVec Ideal S256x1024 .f32) (Y : Vec Ideal S1024x256 .f32)
    (r j : Fin 256) :
    addf acc (matmul dot_S256x1024_S1024x256_S256x256_1_0_0_1_n_n none e
        (shapeCast S1024x256 Y shapeCasts_S1024x256_S1024x256 : FVec Ideal S1024x256 .f32)
        (constant S256x256 .f32 0x00000000#32)) (ix2 r j)
      = acc (ix2 r j) + ∑ l : Fin 1024, e (ix2 r l) * Y (ix2 l j) :=
  congrArg (acc (ix2 r j) + ·) (wy_apply e Y r j)

variable (x0 : Vec Ideal S256x256 .f32) (x1 : Vec Ideal S8192x256 .f32) (x2 : Vec Ideal S1x8192 .f32)

/-- The weights the body forms from a score tile, with the row's temperature and shift. -/
private def W (S : Vec Ideal S256x1024 .f32) : FVec Ideal S256x1024 .f32 :=
  exp (subf (mulf S (broadcastTo S256x1024 (Dag.v127 x0 x1 x2) broadcasts_S256x1_S256x1024))
    (broadcastTo S256x1024 (Dag.v128 x0 x1 x2) broadcasts_S256x1_S256x1024))

/-- A tile's sum of weights, of weight · score, of weight · candidate coordinate. -/
private def sA (s : Fin 8192 → EReal) (t : Fin 8) : EReal := ∑ l : Fin 1024, Soft.kE s (Soft.tl t l)
private def sB (s : Fin 8192 → EReal) (t : Fin 8) : EReal := ∑ l : Fin 1024, Soft.kE s (Soft.tl t l) * s (Soft.tl t l)
private def sC (s y : Fin 8192 → EReal) (t : Fin 8) : EReal := ∑ l : Fin 1024, Soft.kE s (Soft.tl t l) * y (Soft.tl t l)

section Tile

variable (r : Fin 256) (t : Fin 8) (S : Vec Ideal S256x1024 .f32)
  (hS : ∀ l : Fin 1024, S (ix2 r l) = blockScore x0 x1 x2 r (Soft.tl t l))
include hS

/-- On the score tile t the weights are the row's unnormalised weights of that tile's candidates. -/
private theorem W_apply (l : Fin 1024) :
    W x0 x1 x2 S (ix2 r l) = Soft.kE (blockScore x0 x1 x2 r) (Soft.tl t l) := by
  refine (wt_apply (Dag.v127 x0 x1 x2) (Dag.v128 x0 x1 x2) S r l).trans ?_
  rw [hS l, v127_apply, v128_apply]
  rfl

private theorem sumA : ∑ l : Fin 1024, W x0 x1 x2 S (ix2 r l) = sA (blockScore x0 x1 x2 r) t :=
  Finset.sum_congr rfl fun l _ => W_apply x0 x1 x2 r t S hS l

private theorem sumB : ∑ l : Fin 1024, W x0 x1 x2 S (ix2 r l) * S (ix2 r l) = sB (blockScore x0 x1 x2 r) t :=
  Finset.sum_congr rfl fun l _ => by rw [W_apply x0 x1 x2 r t S hS l, hS l]

private theorem sumC (j : Fin 256) (Y : Vec Ideal S1024x256 .f32)
    (hY : ∀ l : Fin 1024, Y (ix2 l j) = Soft.col x1 j (Soft.tl t l)) :
    ∑ l : Fin 1024, W x0 x1 x2 S (ix2 r l) * Y (ix2 l j) = sC (blockScore x0 x1 x2 r) (Soft.col x1 j) t :=
  Finset.sum_congr rfl fun l _ => by rw [W_apply x0 x1 x2 r t S hS l, hY l]

end Tile

/-! ### The accumulation steps with their values named -/

private theorem acc_w' (acc : FVec Ideal S256x1 .f32) (e : FVec Ideal S256x1024 .f32) (r : Fin 256) {a b : EReal}
    (ha : acc (ix2 r 0) = a) (hb : ∑ l : Fin 1024, e (ix2 r l) = b) :
    addf acc (shapeCast S256x1 (multiReduction .add [1] S256 e 0x00000000#32 reduces_S256x1024_S256 (.inl rfl) rfl)
        shapeCasts_S256_S256x1) (ix2 r 0) = a + b := by
  rw [acc_w, ha, hb]

private theorem acc_w0 (acc : FVec Ideal S256x1 .f32) (e : FVec Ideal S256x1024 .f32) (r : Fin 256) {b : EReal}
    (ha : acc (ix2 r 0) = 0) (hb : ∑ l : Fin 1024, e (ix2 r l) = b) :
    addf acc (shapeCast S256x1 (multiReduction .add [1] S256 e 0x00000000#32 reduces_S256x1024_S256 (.inl rfl) rfl)
        shapeCasts_S256_S256x1) (ix2 r 0) = b := by
  rw [acc_w, ha, hb, zero_add]

private theorem acc_ws' (acc : FVec Ideal S256x1 .f32) (e : FVec Ideal S256x1024 .f32) (S : Vec Ideal S256x1024 .f32)
    (r : Fin 256) {a b : EReal} (ha : acc (ix2 r 0) = a) (hb : ∑ l : Fin 1024, e (ix2 r l) * S (ix2 r l) = b) :
    addf acc (shapeCast S256x1 (multiReduction .add [1] S256 (mulf e S) 0x00000000#32 reduces_S256x1024_S256 (.inl rfl) rfl)
        shapeCasts_S256_S256x1) (ix2 r 0) = a + b := by
  rw [acc_ws, ha, hb]

private theorem acc_ws0 (acc : FVec Ideal S256x1 .f32) (e : FVec Ideal S256x1024 .f32) (S : Vec Ideal S256x1024 .f32)
    (r : Fin 256) {b : EReal} (ha : acc (ix2 r 0) = 0) (hb : ∑ l : Fin 1024, e (ix2 r l) * S (ix2 r l) = b) :
    addf acc (shapeCast S256x1 (multiReduction .add [1] S256 (mulf e S) 0x00000000#32 reduces_S256x1024_S256 (.inl rfl) rfl)
        shapeCasts_S256_S256x1) (ix2 r 0) = b := by
  rw [acc_ws, ha, hb, zero_add]

private theorem acc_wy' (acc : FVec Ideal S256x256 .f32) (e : FVec Ideal S256x1024 .f32) (Y : Vec Ideal S1024x256 .f32)
    (r j : Fin 256) {a b : EReal} (ha : acc (ix2 r j) = a) (hb : ∑ l : Fin 1024, e (ix2 r l) * Y (ix2 l j) = b) :
    addf acc (matmul dot_S256x1024_S1024x256_S256x256_1_0_0_1_n_n none e
        (shapeCast S1024x256 Y shapeCasts_S1024x256_S1024x256 : FVec Ideal S1024x256 .f32)
        (constant S256x256 .f32 0x00000000#32)) (ix2 r j) = a + b := by
  rw [acc_wy, ha, hb]

private theorem acc_wy0 (acc : FVec Ideal S256x256 .f32) (e : FVec Ideal S256x1024 .f32) (Y : Vec Ideal S1024x256 .f32)
    (r j : Fin 256) {b : EReal} (ha : acc (ix2 r j) = 0) (hb : ∑ l : Fin 1024, e (ix2 r l) * Y (ix2 l j) = b) :
    addf acc (matmul dot_S256x1024_S1024x256_S256x256_1_0_0_1_n_n none e
        (shapeCast S1024x256 Y shapeCasts_S1024x256_S1024x256 : FVec Ideal S1024x256 .f32)
        (constant S256x256 .f32 0x00000000#32)) (ix2 r j) = b := by
  rw [acc_wy, ha, hb, zero_add]

private theorem mul_at {sh : Shape} (a b : FVec Ideal sh .f32) (i : sh.Idx) {p q : EReal} (ha : a i = p) (hb : b i = q) :
    mulf a b i = p * q := by
  rw [mulf_apply, ha, hb]

/-! ### The second pass, value by value -/

section Chain

variable (r : Fin 256)

/-- After tile 0: the sum of weights … -/
private theorem v140_apply : Dag.v140 x0 x1 x2 (ix2 r 0) = sA (blockScore x0 x1 x2 r) 0 :=
  acc_w0 _ (W x0 x1 x2 (Dag.st0 x0 x1 x2)) r (zero_col (ix2 r 0)) (sumA x0 x1 x2 r 0 (Dag.st0 x0 x1 x2) (st0_apply x0 x1 x2 r))

/-- … and of weight · score. -/
private theorem v144_apply : Dag.v144 x0 x1 x2 (ix2 r 0) = sB (blockScore x0 x1 x2 r) 0 :=
  acc_ws0 _ (W x0 x1 x2 (Dag.st0 x0 x1 x2)) (Dag.st0 x0 x1 x2) r (zero_col (ix2 r 0))
    (sumB x0 x1 x2 r 0 (Dag.st0 x0 x1 x2) (st0_apply x0 x1 x2 r))

/-- After tiles 0, 1, 2. -/
private theorem v174_apply : Dag.v174 x0 x1 x2 (ix2 r 0)
    = sA (blockScore x0 x1 x2 r) 0 + sA (blockScore x0 x1 x2 r) 1 + sA (blockScore x0 x1 x2 r) 2 :=
  acc_w' _ (W x0 x1 x2 (Dag.st2 x0 x1 x2)) r
    (acc_w' (Dag.v140 x0 x1 x2) (W x0 x1 x2 (Dag.st1 x0 x1 x2)) r (v140_apply x0 x1 x2 r)
      (sumA x0 x1 x2 r 1 (Dag.st1 x0 x1 x2) (st1_apply x0 x1 x2 r)))
    (sumA x0 x1 x2 r 2 (Dag.st2 x0 x1 x2) (st2_apply x0 x1 x2 r))

private theorem v178_apply : Dag.v178 x0 x1 x2 (ix2 r 0)
    = sB (blockScore x0 x1 x2 r) 0 + sB (blockScore x0 x1 x2 r) 1 + sB (blockScore x0 x1 x2 r) 2 :=
  acc_ws' _ (W x0 x1 x2 (Dag.st2 x0 x1 x2)) (Dag.st2 x0 x1 x2) r
    (acc_ws' (Dag.v144 x0 x1 x2) (W x0 x1 x2 (Dag.st1 x0 x1 x2)) (Dag.st1 x0 x1 x2) r (v144_apply x0 x1 x2 r)
      (sumB x0 x1 x2 r 1 (Dag.st1 x0 x1 x2) (st1_apply x0 x1 x2 r)))
    (sumB x0 x1 x2 r 2 (Dag.st2 x0 x1 x2) (st2_apply x0 x1 x2 r))

private theorem v182_apply (j : Fin 256) : Dag.v182 x0 x1 x2 (ix2 r j)
    = sC (blockScore x0 x1 x2 r) (Soft.col x1 j) 0 + sC (blockScore x0 x1 x2 r) (Soft.col x1 j) 1
      + sC (blockScore x0 x1 x2 r) (Soft.col x1 j) 2 :=
  acc_wy' _ (W x0 x1 x2 (Dag.st2 x0 x1 x2)) (Dag.Y2 x1) r j
    (acc_wy' _ (W x0 x1 x2 (Dag.st1 x0 x1 x2)) (Dag.Y1 x1) r j
      (acc_wy0 (Dag.v131 (F := Ideal)) (W x0 x1 x2 (Dag.st0 x0 x1 x2)) (Dag.Y0 x1) r j (zero_blk (ix2 r j))
        (sumC x0 x1 x2 r 0 (Dag.st0 x0 x1 x2) (st0_apply x0 x1 x2 r) j (Dag.Y0 x1) (fun l => Y0_apply x1 l j)))
      (sumC x0 x1 x2 r 1 (Dag.st1 x0 x1 x2) (st1_apply x0 x1 x2 r) j (Dag.Y1 x1) (fun l => Y1_apply x1 l j)))
    (sumC x0 x1 x2 r 2 (Dag.st2 x0 x1 x2) (st2_apply x0 x1 x2 r) j (Dag.Y2 x1) (fun l => Y2_apply x1 l j))

/-- After tiles 0 … 5. -/
private theorem v225_apply : Dag.v225 x0 x1 x2 (ix2 r 0)
    = sA (blockScore x0 x1 x2 r) 0 + sA (blockScore x0 x1 x2 r) 1 + sA (blockScore x0 x1 x2 r) 2
      + sA (blockScore x0 x1 x2 r) 3 + sA (blockScore x0 x1 x2 r) 4 + sA (blockScore x0 x1 x2 r) 5 :=
  acc_w' _ (W x0 x1 x2 (Dag.st5 x0 x1 x2)) r
    (acc_w' _ (W x0 x1 x2 (Dag.st4 x0 x1 x2)) r
      (acc_w' (Dag.v174 x0 x1 x2) (W x0 x1 x2 (Dag.st3 x0 x1 x2)) r (v174_apply x0 x1 x2 r)
        (sumA x0 x1 x2 r 3 (Dag.st3 x0 x1 x2) (st3_apply x0 x1 x2 r)))
      (sumA x0 x1 x2 r 4 (Dag.st4 x0 x1 x2) (st4_apply x0 x1 x2 r)))
    (sumA x0 x1 x2 r 5 (Dag.st5 x0 x1 x2) (st5_apply x0 x1 x2 r))

private theorem v229_apply : Dag.v229 x0 x1 x2 (ix2 r 0)
    = sB (blockScore x0 x1 x2 r) 0 + sB (blockScore x0 x1 x2 r) 1 + sB (blockScore x0 x1 x2 r) 2
      + sB (blockScore x0 x1 x2 r) 3 + sB (blockScore x0 x1 x2 r) 4 + sB (blockScore x0 x1 x2 r) 5 :=
  acc_ws' _ (W x0 x1 x2 (Dag.st5 x0 x1 x2)) (Dag.st5 x0 x1 x2) r
    (acc_ws' _ (W x0 x1 x2 (Dag.st4 x0 x1 x2)) (Dag.st4 x0 x1 x2) r
      (acc_ws' (Dag.v178 x0 x1 x2) (W x0 x1 x2 (Dag.st3 x0 x1 x2)) (Dag.st3 x0 x1 x2) r (v178_apply x0 x1 x2 r)
        (sumB x0 x1 x2 r 3 (Dag.st3 x0 x1 x2) (st3_apply x0 x1 x2 r)))
      (sumB x0 x1 x2 r 4 (Dag.st4 x0 x1 x2) (st4_apply x0 x1 x2 r)))
    (sumB x0 x1 x2 r 5 (Dag.st5 x0 x1 x2) (st5_apply x0 x1 x2 r))

/-- After tiles 0 … 4. -/
private theorem v216_apply (j : Fin 256) : Dag.v216 x0 x1 x2 (ix2 r j)
    = sC (blockScore x0 x1 x2 r) (Soft.col x1 j) 0 + sC (blockScore x0 x1 x2 r) (Soft.col x1 j) 1
      + sC (blockScore x0 x1 x2 r) (Soft.col x1 j) 2 + sC (blockScore x0 x1 x2 r) (Soft.col x1 j) 3
      + sC (blockScore x0 x1 x2 r) (Soft.col x1 j) 4 :=
  acc_wy' _ (W x0 x1 x2 (Dag.st4 x0 x1 x2)) (Dag.Y4 x1) r j
    (acc_wy' (Dag.v182 x0 x1 x2) (W x0 x1 x2 (Dag.st3 x0 x1 x2)) (Dag.Y3 x1) r j (v182_apply x0 x1 x2 r j)
      (sumC x0 x1 x2 r 3 (Dag.st3 x0 x1 x2) (st3_apply x0 x1 x2 r) j (Dag.Y3 x1) (fun l => Y3_apply x1 l j)))
    (sumC x0 x1 x2 r 4 (Dag.st4 x0 x1 x2) (st4_apply x0 x1 x2 r) j (Dag.Y4 x1) (fun l => Y4_apply x1 l j))

/-- After all eight tiles. -/
private theorem v267_apply (j : Fin 256) : Dag.v267 x0 x1 x2 (ix2 r j)
    = sC (blockScore x0 x1 x2 r) (Soft.col x1 j) 0 + sC (blockScore x0 x1 x2 r) (Soft.col x1 j) 1
      + sC (blockScore x0 x1 x2 r) (Soft.col x1 j) 2 + sC (blockScore x0 x1 x2 r) (Soft.col x1 j) 3
      + sC (blockScore x0 x1 x2 r) (Soft.col x1 j) 4 + sC (blockScore x0 x1 x2 r) (Soft.col x1 j) 5
      + sC (blockScore x0 x1 x2 r) (Soft.col x1 j) 6 + sC (blockScore x0 x1 x2 r) (Soft.col x1 j) 7 :=
  acc_wy' _ (W x0 x1 x2 (Dag.st7 x0 x1 x2)) (Dag.Y7 x1) r j
    (acc_wy' _ (W x0 x1 x2 (Dag.st6 x0 x1 x2)) (Dag.Y6 x1) r j
      (acc_wy' (Dag.v216 x0 x1 x2) (W x0 x1 x2 (Dag.st5 x0 x1 x2)) (Dag.Y5 x1) r j (v216_apply x0 x1 x2 r j)
        (sumC x0 x1 x2 r 5 (Dag.st5 x0 x1 x2) (st5_apply x0 x1 x2 r) j (Dag.Y5 x1) (fun l => Y5_apply x1 l j)))
      (sumC x0 x1 x2 r 6 (Dag.st6 x0 x1 x2) (st6_apply x0 x1 x2 r) j (Dag.Y6 x1) (fun l => Y6_apply x1 l j)))
    (sumC x0 x1 x2 r 7 (Dag.st7 x0 x1 x2) (st7_apply x0 x1 x2 r) j (Dag.Y7 x1) (fun l => Y7_apply x1 l j))

/-- The reciprocal of the sum of all weights. -/
private theorem v269_apply : Dag.v269 x0 x1 x2 (ix2 r 0) = Soft.kInv (blockScore x0 x1 x2 r) := by
  refine (recip_apply _ r).trans ?_
  refine congrArg (Ideal.div Soft.one) ?_
  refine (acc_w' _ (W x0 x1 x2 (Dag.st7 x0 x1 x2)) r
    (acc_w' (Dag.v225 x0 x1 x2) (W x0 x1 x2 (Dag.st6 x0 x1 x2)) r (v225_apply x0 x1 x2 r)
      (sumA x0 x1 x2 r 6 (Dag.st6 x0 x1 x2) (st6_apply x0 x1 x2 r)))
    (sumA x0 x1 x2 r 7 (Dag.st7 x0 x1 x2) (st7_apply x0 x1 x2 r))).trans ?_
  exact (Soft.sum_tiles (Soft.kE (blockScore x0 x1 x2 r))).symm

end Chain

/-- The soft value block at row r. -/
theorem outV_apply (r : Fin 256) : Dag.outV x0 x1 x2 (ix2 r 0) = Soft.kV (blockScore x0 x1 x2 r) := by
  refine (mul_at _ _ (ix2 r 0)
    (acc_ws' _ (W x0 x1 x2 (Dag.st7 x0 x1 x2)) (Dag.st7 x0 x1 x2) r
      (acc_ws' (Dag.v229 x0 x1 x2) (W x0 x1 x2 (Dag.st6 x0 x1 x2)) (Dag.st6 x0 x1 x2) r (v229_apply x0 x1 x2 r)
        (sumB x0 x1 x2 r 6 (Dag.st6 x0 x1 x2) (st6_apply x0 x1 x2 r)))
      (sumB x0 x1 x2 r 7 (Dag.st7 x0 x1 x2) (st7_apply x0 x1 x2 r)))
    (v269_apply x0 x1 x2 r)).trans ?_
  exact congrArg (· * Soft.kInv (blockScore x0 x1 x2 r))
    (Soft.sum_tiles fun k => Soft.kE (blockScore x0 x1 x2 r) k * blockScore x0 x1 x2 r k).symm

/-- The soft choice block at row r, coordinate j. -/
theorem outC_apply (r j : Fin 256) :
    Dag.outC x0 x1 x2 (ix2 r j) = Soft.kC (blockScore x0 x1 x2 r) (Soft.col x1 j) := by
  refine (mul_at _ _ (ix2 r j) (v267_apply x0 x1 x2 r j)
    ((bcast_coord (Dag.v269 x0 x1 x2) r j).trans (v269_apply x0 x1 x2 r))).trans ?_
  exact congrArg (· * Soft.kInv (blockScore x0 x1 x2 r))
    (Soft.sum_tiles fun k => Soft.kE (blockScore x0 x1 x2 r) k * Soft.col x1 j k).symm

end Cert.KernelIdeal.At

end
-- ==== Proof.KernelArrays.lean ====
/-
  The arrays after the region, at the ideal values. Point t of the grid of 16 handles rows 256 t … 256 t + 255: it
  reads that block of x, the whole candidate matrix and the whole intercept row, and writes back the block of the
  soft choice (256 × 256) and of the soft value (256 × 1). A block row's scores are the array row's scores, so each
  block written is the block of ONE whole-array function; the sixteen blocks tile each output array.
  The candidate matrix the region finds is the rank-3 argument reshaped; the value the program returns is the
  (4096 × 1) array reshaped to 4096.
-/
import proofs.«136104_g88089779241353_cont_9to1c4b_404_4_alg».proof.Proof.Gen.KernelIdeal.Frame
import proofs.«136104_g88089779241353_cont_9to1c4b_404_4_alg».proof.Proof.KernelPiece
import proofs.«136104_g88089779241353_cont_9to1c4b_404_4_alg».proof.Proof.KernelSecond
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.Arrays

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The soft choice of every row, kernel's form. -/
def GC (X : S4096x256.Idx → EReal) (Yq : S8192x256.Idx → EReal) (B : S1x8192.Idx → EReal) : S4096x256.Idx → EReal :=
  fun i => Soft.kC (Soft.score X Yq B (i 0)) (Soft.col Yq (i 1))

/-- The soft value of every row, kernel's form, as a column. -/
def GV (X : S4096x256.Idx → EReal) (Yq : S8192x256.Idx → EReal) (B : S1x8192.Idx → EReal) : S4096x1.Idx → EReal :=
  fun i => Soft.kV (Soft.score X Yq B (i 0))

/-- The printed index maps over the grid: point t reads and writes block row t; the whole-array windows stay at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The row of the arrays that row r of point t's blocks is. -/
def grow (t : Fin cfg0.N) (r : Fin 256) : Fin 4096 :=
  ⟨256 * t.val + r.val, by have := t.isLt; have : cfg0.N = 16 := N_0; have := r.isLt; omega⟩

theorem GC_apply (X : S4096x256.Idx → EReal) (Yq : S8192x256.Idx → EReal) (B : S1x8192.Idx → EReal) (i : Fin 4096) (j : Fin 256) :
    GC X Yq B (ix2 i j) = Soft.kC (Soft.score X Yq B i) (Soft.col Yq j) := rfl

theorem GV_apply (X : S4096x256.Idx → EReal) (Yq : S8192x256.Idx → EReal) (B : S1x8192.Idx → EReal) (i : Fin 4096) (z : Fin 1) :
    GV X Yq B (ix2 i z) = Soft.kV (Soft.score X Yq B i) := rfl

/-- Point t's three input blocks, at their literal types. -/
abbrev xblk (c : Dev nD) (t : Fin cfg0.N) : Vec Ideal S256x256 .f32 := iblk m c 0 t
abbrev yblk (c : Dev nD) (t : Fin cfg0.N) : Vec Ideal S8192x256 .f32 := iblk m c 1 t
abbrev bblk (c : Dev nD) (t : Fin cfg0.N) : Vec Ideal S1x8192 .f32 := iblk m c 2 t

/-- Row r of point t's block of x is row 256 t + r of x. -/
theorem iblk0_apply (c : Dev nD) (t : Fin cfg0.N) (r d : Fin 256) :
    xblk m c t (ix2 r d) = V m c main_arg0 (ix2 (grow t r) d) := by
  obtain ⟨e0, e1, -⟩ := idx_facts t
  show V m c main_arg0 (((cfg0.win 0).blk t).view.emb (ix2 r d)) = V m c main_arg0 (ix2 (grow t r) d)
  refine congrArg _ (funext fun a => Fin.ext ?_)
  match a with
  | ⟨0, _⟩ => show win0_0.index t (0 : Fin 2) * 256 + 1 * r.val = 256 * t.val + r.val; omega
  | ⟨1, _⟩ => show win0_0.index t (1 : Fin 2) * 256 + 1 * d.val = d.val; omega

/-- Point t's block of the candidate matrix is the whole matrix. -/
theorem iblk1_apply (c : Dev nD) (t : Fin cfg0.N) (k : Fin 8192) (d : Fin 256) :
    yblk m c t (ix2 k d) = V m c main_call0_v0 (ix2 k d) := by
  obtain ⟨-, -, e0, e1, -⟩ := idx_facts t
  show V m c main_call0_v0 (((cfg0.win 1).blk t).view.emb (ix2 k d)) = V m c main_call0_v0 (ix2 k d)
  refine congrArg _ (funext fun a => Fin.ext ?_)
  match a with
  | ⟨0, _⟩ => show win0_1.index t (0 : Fin 2) * 8192 + 1 * k.val = k.val; omega
  | ⟨1, _⟩ => show win0_1.index t (1 : Fin 2) * 256 + 1 * d.val = d.val; omega

/-- Point t's block of the intercept row is the whole row. -/
theorem iblk2_apply (c : Dev nD) (t : Fin cfg0.N) (k : Fin 8192) :
    bblk m c t (ix2 0 k) = V m c main_arg2 (ix2 0 k) := by
  obtain ⟨-, -, -, -, e0, e1, -⟩ := idx_facts t
  show V m c main_arg2 (((cfg0.win 2).blk t).view.emb (ix2 0 k)) = V m c main_arg2 (ix2 0 k)
  refine congrArg _ (funext fun a => Fin.ext ?_)
  match a with
  | ⟨0, _⟩ => show win0_2.index t (0 : Fin 2) * 1 + 1 * 0 = 0; omega
  | ⟨1, _⟩ => show win0_2.index t (1 : Fin 2) * 8192 + 1 * k.val = k.val; omega

/-- A block row's scores are the array row's scores. -/
theorem blockScore_eq (c : Dev nD) (t : Fin cfg0.N) (r : Fin 256) :
    At.blockScore (xblk m c t) (yblk m c t) (bblk m c t) r
      = Soft.score (V m c main_arg0) (V m c main_call0_v0) (V m c main_arg2) (grow t r) := by
  funext k
  unfold At.blockScore Soft.score
  rw [iblk2_apply m c t k]
  congr 1
  exact Finset.sum_congr rfl fun d _ => by rw [iblk0_apply m c t r d, iblk1_apply m c t k d]

/-- What the body leaves in the soft choice block at point t, of the point's input blocks. -/
theorem outC_point (c : Dev nD) (t : Fin cfg0.N) :
    (outsAt0 m c t).1 = Dag.outC (xblk m c t) (yblk m c t) (bblk m c t) := by
  unfold outsAt0
  dsimp only
  exact Piece.outC_eq c (grid0.coords t) (ms0_0 t) (hs0_0 t) (ms0_1 t) (hs0_1 t) (ms0_2 t) (hs0_2 t) (ms0_3 t) (hs0_3 t) (ms0_4 t) (hs0_4 t) scM0_0 (Memref.isWhole_whole _) (xblk m c t) (yblk m c t) (bblk m c t)

/-- What the body leaves in the soft value block at point t, of the point's input blocks. -/
theorem outV_point (c : Dev nD) (t : Fin cfg0.N) :
    (outsAt0 m c t).2 = Dag.outV (xblk m c t) (yblk m c t) (bblk m c t) := by
  unfold outsAt0
  dsimp only
  exact Piece.outV_eq c (grid0.coords t) (ms0_0 t) (hs0_0 t) (ms0_1 t) (hs0_1 t) (ms0_2 t) (hs0_2 t) (ms0_3 t) (hs0_3 t) (ms0_4 t) (hs0_4 t) scM0_0 (Memref.isWhole_whole _) (xblk m c t) (yblk m c t) (bblk m c t)

/-- The soft choice block at point t is the block of GC at rows 256 t …. -/
theorem outC_block (c : Dev nD) (t : Fin cfg0.N) :
    Dag.outC (xblk m c t) (yblk m c t) (bblk m c t)
      = fun y : S256x256.Idx => GC (V m c main_arg0) (V m c main_call0_v0) (V m c main_arg2) (ix2 (grow t (y 0)) (y 1)) := by
  funext y
  obtain ⟨r, j, rfl⟩ : ∃ (r : Fin 256) (j : Fin 256), y = ix2 r j := ⟨y 0, y 1, eq_ix2 y⟩
  show Dag.outC (xblk m c t) (yblk m c t) (bblk m c t) (ix2 r j)
    = GC (V m c main_arg0) (V m c main_call0_v0) (V m c main_arg2) (ix2 (grow t r) j)
  rw [GC_apply]
  refine (At.outC_apply (xblk m c t) (yblk m c t) (bblk m c t) r j).trans ?_
  rw [blockScore_eq m c t r]
  exact congrArg (Soft.kC _) (funext fun k => iblk1_apply m c t k j)

/-- The soft value block at point t is the block of GV at rows 256 t …. -/
theorem outV_block (c : Dev nD) (t : Fin cfg0.N) :
    Dag.outV (xblk m c t) (yblk m c t) (bblk m c t)
      = fun y : S256x1.Idx => GV (V m c main_arg0) (V m c main_call0_v0) (V m c main_arg2) (ix2 (grow t (y 0)) (y 1)) := by
  funext y
  obtain ⟨r, z, rfl⟩ : ∃ (r : Fin 256) (z : Fin 1), y = ix2 r z := ⟨y 0, y 1, eq_ix2 y⟩
  obtain rfl : z = 0 := Subsingleton.elim _ _
  show Dag.outV (xblk m c t) (yblk m c t) (bblk m c t) (ix2 r 0)
    = GV (V m c main_arg0) (V m c main_call0_v0) (V m c main_arg2) (ix2 (grow t r) 0)
  rw [GV_apply]
  refine (At.outV_apply (xblk m c t) (yblk m c t) (bblk m c t) r).trans ?_
  rw [blockScore_eq m c t r]

/-- WHAT POINT t WRITES BACK to the soft choice array is block t of GC of the arrays as the region finds them. -/
theorem flushedC_eq (c : Dev nD) (t : Fin cfg0.N) :
    (dats m 0 c).flushed 3 t
      = ((cfg0.win 3).blk t).view.read (Elt Ideal) (GC (V m c main_arg0) (V m c main_call0_v0) (V m c main_arg2)) := by
  show (cfg0.win 3).cut (grid0.coords t) ((dats m 0 c).after 3 t) = _
  rw [after0_3, outC_point, outC_block]
  obtain ⟨-, -, -, -, -, -, e0, e1, -⟩ := idx_facts t
  funext y
  show GC (V m c main_arg0) (V m c main_call0_v0) (V m c main_arg2) (ix2 (grow t (y 0)) (y 1))
    = GC (V m c main_arg0) (V m c main_call0_v0) (V m c main_arg2) (((cfg0.win 3).blk t).view.emb y)
  refine congrArg _ (funext fun a => Fin.ext ?_)
  match a with
  | ⟨0, _⟩ => show 256 * t.val + (y 0).val = win0_3.index t (0 : Fin 2) * 256 + 1 * (y 0).val; omega
  | ⟨1, _⟩ => show (y 1).val = win0_3.index t (1 : Fin 2) * 256 + 1 * (y 1).val; omega

/-- WHAT POINT t WRITES BACK to the soft value array is block t of GV. -/
theorem flushedV_eq (c : Dev nD) (t : Fin cfg0.N) :
    (dats m 0 c).flushed 4 t
      = ((cfg0.win 4).blk t).view.read (Elt Ideal) (GV (V m c main_arg0) (V m c main_call0_v0) (V m c main_arg2)) := by
  show (cfg0.win 4).cut (grid0.coords t) ((dats m 0 c).after 4 t) = _
  rw [after0_4, outV_point, outV_block]
  obtain ⟨-, -, -, -, -, -, -, -, e0, e1⟩ := idx_facts t
  funext y
  show GV (V m c main_arg0) (V m c main_call0_v0) (V m c main_arg2) (ix2 (grow t (y 0)) (y 1))
    = GV (V m c main_arg0) (V m c main_call0_v0) (V m c main_arg2) (((cfg0.win 4).blk t).view.emb y)
  refine congrArg _ (funext fun a => Fin.ext ?_)
  match a with
  | ⟨0, _⟩ => show 256 * t.val + (y 0).val = win0_4.index t (0 : Fin 2) * 256 + 1 * (y 0).val; omega
  | ⟨1, _⟩ => show (y 1).val = win0_4.index t (1 : Fin 2) * 1 + 1 * (y 1).val; omega

/-- An index of the soft choice array is in point t's block iff each coordinate is in the block's range. -/
theorem mem_blkC (t : Fin cfg0.N) (i : S4096x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v0_0).slice (win0_3.rect t)).set ↔ _
  rw [View.set_slice_whole, Rect.mem_set_unit]
  exact Iff.rfl

theorem mem_blkV (t : Fin cfg0.N) (i : S4096x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_call0_v1_1).slice (win0_4.rect t)).set ↔ _
  rw [View.set_slice_whole, Rect.mem_set_unit]
  exact Iff.rfl

/-- The sixteen blocks tile the soft choice array: row i lies in the block of point i / 256. -/
theorem coverC (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  have hN : cfg0.N = 16 := N_0
  refine ⟨⟨(i 0).val / 256, by omega⟩, flush0_3 _, ?_⟩
  rw [mem_blkC]
  obtain ⟨-, -, -, -, -, -, e0, e1, -⟩ := idx_facts ⟨(i 0).val / 256, by omega⟩
  intro a
  match a with
  | ⟨0, _⟩ => show win0_3.index _ (0 : Fin 2) * 256 ≤ (i 0).val ∧ (i 0).val < win0_3.index _ (0 : Fin 2) * 256 + 256; simp only [] at e0; omega
  | ⟨1, _⟩ => show win0_3.index _ (1 : Fin 2) * 256 ≤ (i 1).val ∧ (i 1).val < win0_3.index _ (1 : Fin 2) * 256 + 256; omega

theorem coverV (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 16 := N_0
  refine ⟨⟨(i 0).val / 256, by omega⟩, flush0_4 _, ?_⟩
  rw [mem_blkV]
  obtain ⟨-, -, -, -, -, -, -, -, e0, e1⟩ := idx_facts ⟨(i 0).val / 256, by omega⟩
  intro a
  match a with
  | ⟨0, _⟩ => show win0_4.index _ (0 : Fin 2) * 256 ≤ (i 0).val ∧ (i 0).val < win0_4.index _ (0 : Fin 2) * 256 + 256; simp only [] at e0; omega
  | ⟨1, _⟩ => show win0_4.index _ (1 : Fin 2) * 1 ≤ (i 1).val ∧ (i 1).val < win0_4.index _ (1 : Fin 2) * 1 + 1; omega

/-- The candidate matrix the region finds is the rank-3 argument reshaped. -/
theorem V_yq (c : Dev nD) :
    (V m c main_call0_v0 : S8192x256.Idx → EReal)
      = shapeCast S8192x256 (m ((c : Thread nD τ).loc main_arg1)) Facts₀.shapeCasts_S1x8192x256_S8192x256 := by
  show StableHlo.after hostOps0 (fun b => m (c, b)) (Proc.devRef .tc main_call0_v0) = _
  after_results
  rfl

/-- Read at an index: the matrix entry (k, d) is the argument's entry (0, k, d). -/
theorem V_yq_eq (c : Dev nD) : (V m c main_call0_v0 : S8192x256.Idx → EReal) = Soft.squeeze (m ((c : Thread nD τ).loc main_arg1)) := by
  rw [V_yq]
  funext i
  obtain ⟨k, d, rfl⟩ : ∃ (k : Fin 8192) (d : Fin 256), i = ix2 k d := ⟨i 0, i 1, eq_ix2 i⟩
  exact shapeCast_1ab_ab_apply (m ((c : Thread nD τ).loc main_arg1)) Facts₀.shapeCasts_S1x8192x256_S8192x256 k d

/-- The value the program returns is the (4096 × 1) array after the region, reshaped. -/
theorem tail_v (c : Dev nD) :
    Pipeline.afterTail₀ cfgs (dats m) 0 (V0 m) [hostOps1] c main_v0_1
      = shapeCast S4096 ((dats m 0 c).arrAt 4 cfg0.N) Facts₀.shapeCasts_S4096x1_S4096 := by
  unfold Pipeline.afterTail₀
  show StableHlo.after hostOps1 _ (Proc.devRef .tc main_v0_1) = _
  after_results
  exact congrArg (fun a => shapeCast S4096 a Facts₀.shapeCasts_S4096x1_S4096) (Pipeline.withArrays_arr spec0 launch0.win.arr_inj c _ _ 4)

/-! ## The arrays after the run -/

/-- THE SOFT CHOICE ARRAY after the region: GC of the arguments. -/
theorem finalC (c : Dev nD) :
    (dats m 0 c).arrAt 3 cfg0.N
      = GC (m ((c : Thread nD τ).loc main_arg0)) (Soft.squeeze (m ((c : Thread nD τ).loc main_arg1))) (m ((c : Thread nD τ).loc main_arg2)) := by
  rw [← V_main_arg0 m c, ← V_main_arg2 m c, ← V_yq_eq m c]
  exact (dats m 0 c).arrAt_eq_of_cover 3 _ (fun t _ => flushedC_eq m c t) coverC

/-- THE SOFT VALUE ARRAY (4096 × 1) after the region: GV of the arguments. -/
theorem finalV (c : Dev nD) :
    (dats m 0 c).arrAt 4 cfg0.N
      = GV (m ((c : Thread nD τ).loc main_arg0)) (Soft.squeeze (m ((c : Thread nD τ).loc main_arg1))) (m ((c : Thread nD τ).loc main_arg2)) := by
  rw [← V_main_arg0 m c, ← V_main_arg2 m c, ← V_yq_eq m c]
  exact (dats m 0 c).arrAt_eq_of_cover 4 _ (fun t _ => flushedV_eq m c t) coverV

/-- The soft value of every row as the program returns it: the column reshaped to a vector. -/
def RV (X : S4096x256.Idx → EReal) (Yq : S8192x256.Idx → EReal) (B : S1x8192.Idx → EReal) : S4096.Idx → EReal :=
  fun i => Soft.kV (Soft.score X Yq B (i 0))

/-- The returned soft value. -/
theorem finalR (c : Dev nD) :
    Pipeline.afterTail₀ cfgs (dats m) 0 (V0 m) [hostOps1] c main_v0_1
      = RV (m ((c : Thread nD τ).loc main_arg0)) (Soft.squeeze (m ((c : Thread nD τ).loc main_arg1))) (m ((c : Thread nD τ).loc main_arg2)) := by
  rw [tail_v, finalV]
  funext i
  obtain ⟨r, rfl⟩ : ∃ r : Fin 4096, i = ix1 r := ⟨i 0, eq_ix1 i⟩
  refine (shapeCast_apply _ Facts₀.shapeCasts_S4096x1_S4096 (ix1 r) (ix2 r (0 : Fin 1)) ?_).trans rfl
  rw [Shape.rowMajor_val_two, Shape.rowMajor_val_one]
  show r.val * 1 + 0 = r.val
  omega

/-! ## The run, read -/

/-- The kernel program's run at the ideal values: the two results at GC and RV of the arguments, the arguments unchanged. -/
theorem run : θ_run defs (onTc (τ := τ) (main (F := Ideal))) ⟨m, fun _ => 0, ρ⟩ fun r => ∀ c : Dev nD,
      r.2.mem ((c : Thread nD τ).loc main_v0_0)
        = GC (m ((c : Thread nD τ).loc main_arg0)) (Soft.squeeze (m ((c : Thread nD τ).loc main_arg1))) (m ((c : Thread nD τ).loc main_arg2))
      ∧ r.2.mem ((c : Thread nD τ).loc main_v0_1)
        = RV (m ((c : Thread nD τ).loc main_arg0)) (Soft.squeeze (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).1 3).trans (finalC m c),
      ((h c).2 main_v0_1 (Pipeline.mem_restRefs_of main_v0_1 (by decide) (by decide))).trans (finalR m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Arrays

end
-- ==== Proof.lean ====
/-
  The certificate of the soft selection kernel against its reference, over the extended reals.

  Both programs compute, for each of 4096 rows, the scores s k = ⟨x, yq k⟩ + b k against 8192 candidates, a
  temperature eff between 50 and 5000 from the row's span max s − min s, the weights proportional to
  exp (eff · (s k − max s)), and return the weighted mean of the scores and the weighted mean of the candidates.
  The kernel handles 256 rows per grid point and the candidates in eight tiles of 1024, keeps the unnormalised weights
  exp (s k · eff − max s · eff), and scales the two sums by the reciprocal of the weights' sum at the end; the
  reference normalises the weights first, after shifting eff · s by its own maximum twice. On finite inputs the two
  agree: the temperature is a non-negative real, so the maximum of eff · s is eff · max s and the second shift is by
  zero; the sum of weights is a non-zero real, so it moves across the finite sums. The three frames are the generated
  ones (the reference's is its run with the results dropped); the idealization rewrote nothing.
-/
import proofs.«136104_g88089779241353_cont_9to1c4b_404_4_alg».proof.Defs
import proofs.«136104_g88089779241353_cont_9to1c4b_404_4_alg».proof.Proof.Gen.Kernel
import proofs.«136104_g88089779241353_cont_9to1c4b_404_4_alg».proof.Proof.Gen.Kernel.Skeleton
import proofs.«136104_g88089779241353_cont_9to1c4b_404_4_alg».proof.Proof.Gen.Kernel.Launch
import proofs.«136104_g88089779241353_cont_9to1c4b_404_4_alg».proof.Proof.Gen.Kernel.Points
import proofs.«136104_g88089779241353_cont_9to1c4b_404_4_alg».proof.Proof.Gen.Kernel.Frame
import proofs.«136104_g88089779241353_cont_9to1c4b_404_4_alg».proof.Proof.Gen.KernelIdeal
import proofs.«136104_g88089779241353_cont_9to1c4b_404_4_alg».proof.Proof.Gen.KernelIdeal.Skeleton
import proofs.«136104_g88089779241353_cont_9to1c4b_404_4_alg».proof.Proof.Gen.KernelIdeal.Launch
import proofs.«136104_g88089779241353_cont_9to1c4b_404_4_alg».proof.Proof.Gen.KernelIdeal.Points
import proofs.«136104_g88089779241353_cont_9to1c4b_404_4_alg».proof.Proof.Gen.KernelIdeal.Frame
import proofs.«136104_g88089779241353_cont_9to1c4b_404_4_alg».proof.Proof.Gen.ReferenceIdeal
import proofs.«136104_g88089779241353_cont_9to1c4b_404_4_alg».proof.Proof.Gen.ReferenceIdeal.Run
import proofs.«136104_g88089779241353_cont_9to1c4b_404_4_alg».proof.Proof.Gen.ReferenceIdeal.Read
import proofs.«136104_g88089779241353_cont_9to1c4b_404_4_alg».proof.Proof.Gen.Pre_finite_inputs
import proofs.«136104_g88089779241353_cont_9to1c4b_404_4_alg».proof.Proof.Spec
import proofs.«136104_g88089779241353_cont_9to1c4b_404_4_alg».proof.Proof.Algebra
import proofs.«136104_g88089779241353_cont_9to1c4b_404_4_alg».proof.Proof.Finite
import proofs.«136104_g88089779241353_cont_9to1c4b_404_4_alg».proof.Proof.RefRead
import proofs.«136104_g88089779241353_cont_9to1c4b_404_4_alg».proof.Proof.KernelArrays
import Idealize.ShloMosaic.Adequacy
import Idealize.ShloMosaic.Init

noncomputable section

namespace Cert.Proof

open Idealize.ShloMosaic Idealize.ShloMosaic.ValueIdx Idealize.SL.Sem

/-- The kernel's form and the reference's form of the two results agree on finite arguments. -/
theorem results_agree (X : (⟨2, ![4096, 256]⟩ : Shape).Idx → EReal) (Y : (⟨3, ![1, 8192, 256]⟩ : Shape).Idx → EReal)
    (B : (⟨2, ![1, 8192]⟩ : Shape).Idx → EReal) (hX : ∀ i, ∃ r : ℝ, X i = (r : EReal)) (hY : ∀ i, ∃ r : ℝ, Y i = (r : EReal))
    (hB : ∀ i, ∃ r : ℝ, B i = (r : EReal)) (i : Fin 4096) :
    Soft.kV (Soft.score X (Soft.squeeze Y) B i) = Soft.rV (Soft.score X (Soft.squeeze Y) B i)
    ∧ ∀ j : Fin 256, Soft.kC (Soft.score X (Soft.squeeze Y) B i) (Soft.col (Soft.squeeze Y) j)
        = Soft.rC (Soft.score X (Soft.squeeze Y) B i) (Soft.col (Soft.squeeze Y) j) := by
  have hYq : ∀ q, ∃ r : ℝ, Soft.squeeze Y q = (r : EReal) := fun q => hY _
  have hs : ∀ k, ∃ r : ℝ, Soft.score X (Soft.squeeze Y) B i k = (r : EReal) := fun k => Soft.score_real X _ B hX hYq hB i k
  exact ⟨Soft.kV_eq_rV _ hs, fun j => Soft.kC_eq_rC _ _ hs fun k => hYq _⟩

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The two idealized programs, run from memories agreeing on finite arguments, end with equal results. -/
theorem algebraic : Cert.algebraic_KernelIdeal_ReferenceIdeal := by
  intro m ρ m' ρ' hpre hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hX, hY, hB⟩ := Cert.Finite.real_of_pre _ _ _ (hpre c)
    rw [Cert.ReferenceIdeal.Read.val_main_v34_eq, (hagree c).1, (hagree c).2.1, (hagree c).2.2]
    funext q
    obtain ⟨i, j, rfl⟩ : ∃ (i : Fin 4096) (j : Fin 256), q = ix2 i j := ⟨q 0, q 1, eq_ix2 q⟩
    rw [Cert.ReferenceIdeal.RefValue.choice_apply, Cert.KernelIdeal.Arrays.GC_apply]
    exact ((results_agree _ _ _ hX hY hB i).2 j).symm
  · obtain ⟨hX, hY, hB⟩ := Cert.Finite.real_of_pre _ _ _ (hpre c)
    rw [Cert.ReferenceIdeal.Read.val_main_v33_eq, (hagree c).1, (hagree c).2.1, (hagree c).2.2]
    funext q
    obtain ⟨i, rfl⟩ : ∃ i : Fin 4096, q = ix1 i := ⟨q 0, eq_ix1 q⟩
    rw [Cert.ReferenceIdeal.RefValue.v_apply]
    exact (results_agree _ _ _ hX hY hB i).1.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
